-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x1024x1024 : Shape := ⟨4, ![32, 2, 1024, 1024]⟩
abbrev S32x1024x1024 : Shape := ⟨3, ![32, 1024, 1024]⟩
abbrev S_ : Shape := ⟨0, ![]⟩

class Facts : Prop where
  bcast_S_S32x2x1024x1024 : S_.BroadcastsInDim S32x2x1024x1024 (![] : Fin 0 → Fin S32x2x1024x1024.rank)
  reducesTo_S32x2x1024x1024_S_d0_1_2_3 : S32x2x1024x1024.ReducesTo [0, 1, 2, 3] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S32x2x1024x1024 .f32) (main_arg1 : IVec S32x1024x1024 32) : IVec S_ 1 :=
  let main_v0 : FVec F S32x2x1024x1024 .f32 := Host.absf main_arg0
  let main_cst : FVec F S_ .f32 := constant S_ .f32 0x7F800000#32
  let main_v1 : FVec F S32x2x1024x1024 .f32 := broadcastInDim S32x2x1024x1024 ![] bcast_S_S32x2x1024x1024 main_cst
  let main_v2 : IVec S32x2x1024x1024 1 := cmpf .olt main_v0 main_v1
  let main_c : IVec S_ 1 := constantI S_ 1 1#1
  let main_v3 : IVec S_ 1 := (fun x v => Host.reduce IntOp.andi x v reducesTo_S32x2x1024x1024_S_d0_1_2_3 h_S_) main_v2 main_c
  let main_c_0 : IVec S_ 32 := constantI S_ 32 0#32
  let main_v4 : IVec S32x1024x1024 32 := broadcastInDim S32x1024x1024 ![] bcast_S_S32x1024x1024 main_c_0
  let main_v5 : IVec S32x1024x1024 1 := cmpi .eq main_arg1 main_v4
  let main_c_1 : IVec S_ 32 := constantI S_ 32 1#32
  let main_v6 : IVec S32x1024x1024 32 := broadcastInDim S32x1024x1024 ![] bcast_S_S32x1024x1024 main_c_1
  let main_v7 : IVec S32x1024x1024 1 := cmpi .eq main_arg1 main_v6
  let main_v8 : IVec S32x1024x1024 1 := ori main_v5 main_v7
  let main_c_2 : IVec S_ 1 := constantI S_ 1 1#1
  let main_v9 : IVec S_ 1 := (fun x v => Host.reduce IntOp.andi x v reducesTo_S32x1024x1024_S_d0_1_2 h_S_) main_v8 main_c_2
  let main_v10 : IVec S_ 1 := andi main_v3 main_v9
  main_v10
-- ==== Kernel.lean ====
abbrev S32x2x1024x1024 : Shape := ⟨4, ![32, 2, 1024, 1024]⟩
abbrev S32x1024x1024 : Shape := ⟨3, ![32, 1024, 1024]⟩
abbrev S32x1x1 : Shape := ⟨3, ![32, 1, 1]⟩
abbrev S8x2x128x1024 : Shape := ⟨4, ![8, 2, 128, 1024]⟩
abbrev S8x128x1024 : Shape := ⟨3, ![8, 128, 1024]⟩
abbrev S8x1x1 : Shape := ⟨3, ![8, 1, 1]⟩
abbrev S8x1x128x1024 : Shape := ⟨4, ![8, 1, 128, 1024]⟩
abbrev S8x128 : Shape := ⟨2, ![8, 128]⟩
abbrev S8x128x1 : Shape := ⟨3, ![8, 128, 1]⟩
abbrev S8x1 : Shape := ⟨2, ![8, 1]⟩
abbrev S32 : Shape := ⟨1, ![32]⟩
abbrev S_ : Shape := ⟨0, ![]⟩
abbrev S32x1 : Shape := ⟨2, ![32, 1]⟩
abbrev S32x2 : Shape := ⟨2, ![32, 2]⟩

abbrev nBuf : Space → Nat
  | .hbm => 52
  | .vmem => 13
  | .smem => 0
  | _ => 0

abbrev bufTy : (tb : Table) → Fin (tcTables nBuf tb) → BufTy
  | .hbm, ⟨0, _⟩ => ⟨S32x2x1024x1024, .f32⟩
  | .hbm, ⟨1, _⟩ => ⟨S32x1024x1024, .i32⟩
  | .hbm, ⟨2, _⟩ => ⟨S32x1x1, .f32⟩
  | .hbm, ⟨3, _⟩ => ⟨S32x1x1, .f32⟩
  | .hbm, ⟨4, _⟩ => ⟨S32x1x1, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32x1, .f32⟩
  | .hbm, ⟨13, _⟩ => ⟨S32x1, .f32⟩
  | .hbm, ⟨14, _⟩ => ⟨S32x2, .f32⟩
  | .hbm, ⟨15, _⟩ => ⟨S_, .f32⟩
  | .hbm, ⟨16, _⟩ => ⟨S32, .f32⟩
  | .hbm, ⟨17, _⟩ => ⟨S32x1, .f32⟩
  | .hbm, ⟨18, _⟩ => ⟨S32x2, .f32⟩
  | .hbm, ⟨19, _⟩ => ⟨S32x2, .f32⟩
  | .hbm, ⟨20, _⟩ => ⟨S_, .f32⟩
  | .hbm, ⟨21, _⟩ => ⟨S32x2, .f32⟩
  | .hbm, ⟨22, _⟩ => ⟨S32x2, .f32⟩
  | .hbm, ⟨23, _⟩ => ⟨S_, .f32⟩
  | .hbm, ⟨24, _⟩ => ⟨S32x2, .f32⟩
  | .hbm, ⟨25, _⟩ => ⟨S32x2, .f32⟩
  | .hbm, ⟨26, _⟩ => ⟨S_, .f32⟩
  | .hbm, ⟨27, _⟩ => ⟨S32, .f32⟩
  | .hbm, ⟨28, _⟩ => ⟨S32x1, .f32⟩
  | .hbm, ⟨29, _⟩ => ⟨S_, .f32⟩
  | .hbm, ⟨30, _⟩ => ⟨S32x1, .f32⟩
  | .hbm, ⟨31, _⟩ => ⟨S32x1, .f32⟩
  | .hbm, ⟨32, _⟩ => ⟨S_, .f32⟩
  | .hbm, ⟨33, _⟩ => ⟨S32x1, .f32⟩
  | .hbm, ⟨34, _⟩ => ⟨S32x1, .f32⟩
  | .hbm, ⟨35, _⟩ => ⟨S32x2, .f32⟩
  | .hbm, ⟨36, _⟩ => ⟨S32x2, .f32⟩
  | .hbm, ⟨37, _⟩ => ⟨S32x1, .f32⟩
  | .hbm, ⟨38, _⟩ => ⟨S32, .f32⟩
  | .hbm, ⟨39, _⟩ => ⟨S32x1, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S8x2x128x1024, .f32⟩
  | .local _ .vmem, ⟨1, _⟩ => ⟨S8x2x128x1024, .f32⟩
  | .local _ .vmem, ⟨2, _⟩ => ⟨S8x128x1024, .i32⟩
  | .local _ .vmem, ⟨3, _⟩ => ⟨S8x128x1024, .i32⟩
  | .local _ .vmem, ⟨4, _⟩ => ⟨S8x1x1, .f32⟩
  | .local _ .vmem, ⟨5, _⟩ => ⟨S8x1x1, .f32⟩
  | .local _ .vmem, ⟨6, _⟩ => ⟨S8x1x1, .f32⟩
  | .local _ .vmem, ⟨7, _⟩ => ⟨S8x1x1, .f32⟩
  | .local _ .vmem, ⟨8, _⟩ => ⟨S8x1x1, .f32⟩
  | .local _ .vmem, ⟨9, _⟩ => ⟨S8x1x1, .f32⟩
  | .local _ .vmem, ⟨10, _⟩ => ⟨S8x1x1, .f32⟩
  | .local _ .vmem, ⟨11, _⟩ => ⟨S8x1x1, .f32⟩
  | .local _ .vmem, ⟨12, _⟩ => ⟨S8x1x1, .f32⟩
  | _, _ => ⟨S32x2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_37 : BitVec 32 := 0#32
  let v53 : BitVec 1 := Scalar.cmpi .ne v52 c0_i32_37
  v53

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  inb_S8x2x128x1024_S8x1x128x1024_0_0_0_0 : ∀ a, (![0, 0, 0, 0] : Fin 4 → Nat) a + S8x1x128x1024.size a ≤ S8x2x128x1024.size a
  h_S8x1x128x1024 : 0 < S8x1x128x1024.numel
  shapeCasts_S8x1x128x1024_S8x128x1024 : S8x1x128x1024.ShapeCasts S8x128x1024
  inb_S8x2x128x1024_S8x1x128x1024_0_1_0_0 : ∀ a, (![0, 1, 0, 0] : Fin 4 → Nat) a + S8x1x128x1024.size a ≤ S8x2x128x1024.size a
  inb_S8x128x1024_S8x128x1024_0_0_0 : ∀ a, (![0, 0, 0] : Fin 3 → Nat) a + S8x128x1024.size a ≤ S8x128x1024.size a
  h_S8x128x1024 : 0 < S8x128x1024.numel
  reduces_S8x128x1024_S8x128 : S8x128x1024.Reduces [2] S8x128
  shapeCasts_S8x128_S8x128x1 : S8x128.ShapeCasts S8x128x1
  reduces_S8x128x1_S8x1 : S8x128x1.Reduces [1] S8x1
  shapeCasts_S8x1_S8x1x1 : S8x1.ShapeCasts S8x1x1
  shapeCasts_S32x1x1_S32 : S32x1x1.ShapeCasts S32
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  reducesTo_S32x2_S32_d1 : S32x2.ReducesTo [1] S32
  h_S_ : 0 < S_.numel
  bcast_S32x1_S32x2_0_1 : S32x1.BroadcastsInDim S32x2 (![0, 1] : Fin 2 → Fin S32x2.rank)
  bcast_S_S32x2 : S_.BroadcastsInDim S32x2 (![] : Fin 0 → Fin S32x2.rank)
  bcast_S_S32x1 : S_.BroadcastsInDim S32x1 (![] : Fin 0 → Fin S32x1.rank)
  slices_S32x2_S32x1_0_0 : S32x2.Slices ![0, 0] S32x1
  shapeCasts_S32x1_S32 : S32x1.ShapeCasts S32
  slices_S32x2_S32x1_0_1 : S32x2.Slices ![0, 1] S32x1
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2x128x1024.size a ≤ S32x2x1024x1024.size a
  hwx0_0 : ∀ i : grid0.Coords, EltTy.bits .f32 = 32 ∨ (Rect.block (s := S32x2x1024x1024) S8x2x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S32x1024x1024.size a
  hwx0_1 : ∀ i : grid0.Coords, EltTy.bits .i32 = 32 ∨ (Rect.block (s := S32x1024x1024) S8x128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x1.size a ≤ S32x1x1.size a
  hwx0_2 : ∀ i : grid0.Coords, EltTy.bits .f32 = 32 ∨ (Rect.block (s := S32x1x1) S8x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x1.size a ≤ S32x1x1.size a
  hwx0_3 : ∀ i : grid0.Coords, EltTy.bits .f32 = 32 ∨ (Rect.block (s := S32x1x1) S8x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x1.size a ≤ S32x1x1.size a
  hwx0_4 : ∀ i : grid0.Coords, EltTy.bits .f32 = 32 ∨ (Rect.block (s := S32x1x1) S8x1x1.size (cc0_transform_4 i) (hinb0_4 i)).WholeWords (EltTy.packing .f32)

variable [Facts₀]

abbrev win0_0 : Pipeline.Window sig grid0 :=
  Pipeline.Window.ofSpec (Memref.whole main_arg0) S8x2x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2x1024x1024 : Shape := ⟨4, ![32, 2, 1024, 1024]⟩
abbrev S32x1024x1024 : Shape := ⟨3, ![32, 1024, 1024]⟩
abbrev S32 : Shape := ⟨1, ![32]⟩
abbrev S32x1x1 : Shape := ⟨3, ![32, 1, 1]⟩
abbrev S_ : Shape := ⟨0, ![]⟩
abbrev S32x2 : Shape := ⟨2, ![32, 2]⟩
abbrev S32x1024x1024x1 : Shape := ⟨4, ![32, 1024, 1024, 1]⟩
abbrev S32x1024x1024x2 : Shape := ⟨4, ![32, 1024, 1024, 2]⟩
abbrev S32x1 : Shape := ⟨2, ![32, 1]⟩
abbrev S32x1x1024x1024 : Shape := ⟨4, ![32, 1, 1024, 1024]⟩
abbrev S32x1x1024x1024x1 : Shape := ⟨5, ![32, 1, 1024, 1024, 1]⟩
abbrev S1 : Shape := ⟨1, ![1]⟩
abbrev S1x1x1x1x1 : Shape := ⟨5, ![1, 1, 1, 1, 1]⟩
abbrev S32x1048576 : Shape := ⟨2, ![32, 1048576]⟩
abbrev S32x1048576x1 : Shape := ⟨3, ![32, 1048576, 1]⟩
abbrev S1x1x1 : Shape := ⟨3, ![1, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S32x2x1024x1024, .f32⟩
  | .hbm, ⟨1, _⟩ => ⟨S32x1024x1024, .i32⟩
  | .hbm, ⟨2, _⟩ => ⟨S32, .i32⟩
  | .hbm, ⟨3, _⟩ => ⟨S32x1x1, .i32⟩
  | .hbm, ⟨4, _⟩ => ⟨S_, .f32⟩
  | .hbm, ⟨5, _⟩ => ⟨S32x2, .f32⟩
  | .hbm, ⟨6, _⟩ => ⟨S_, .i32⟩
  | .hbm, ⟨7, _⟩ => ⟨S32x1x1, .i32⟩
  | .hbm, ⟨8, _⟩ => ⟨S32x1x1, .i1⟩
  | .hbm, ⟨9, _⟩ => ⟨S_, .i32⟩
  | .hbm, ⟨10, _⟩ => ⟨S32x1x1, .i32⟩
  | .hbm, ⟨11, _⟩ => ⟨S32x1x1, .i32⟩
  | .hbm, ⟨12, _⟩ => ⟨S32x1x1, .i32⟩
  | .hbm, ⟨13, _⟩ => ⟨S_, .i32⟩
  | .hbm, ⟨14, _⟩ => ⟨S32x1024x1024, .i32⟩
  | .hbm, ⟨15, _⟩ => ⟨S32x1024x1024, .i1⟩
  | .hbm, ⟨16, _⟩ => ⟨S_, .i32⟩
  | .hbm, ⟨17, _⟩ => ⟨S32x1024x1024, .i32⟩
  | .hbm, ⟨18, _⟩ => ⟨S32x1024x1024, .i32⟩
  | .hbm, ⟨19, _⟩ => ⟨S32x1024x1024, .i32⟩
  | .hbm, ⟨20, _⟩ => ⟨S32x1024x1024, .i32⟩
  | .hbm, ⟨21, _⟩ => ⟨S32x1024x1024x1, .i32⟩
  | .hbm, ⟨22, _⟩ => ⟨S32x1024x1024x1, .i32⟩
  | .hbm, ⟨23, _⟩ => ⟨S32x1024x1024x2, .i32⟩
  | .hbm, ⟨24, _⟩ => ⟨S_, .f32⟩
  | .hbm, ⟨25, _⟩ => ⟨S32x1024x1024, .f32⟩
  | .hbm, ⟨26, _⟩ => ⟨S32x2, .f32⟩
  | .hbm, ⟨27, _⟩ => ⟨S_, .f32⟩
  | .hbm, ⟨28, _⟩ => ⟨S32, .f32⟩
  | .hbm, ⟨29, _⟩ => ⟨S32x1, .f32⟩
  | .hbm, ⟨30, _⟩ => ⟨S32x2, .f32⟩
  | .hbm, ⟨31, _⟩ => ⟨S32x2, .f32⟩
  | .hbm, ⟨32, _⟩ => ⟨S_, .f32⟩
  | .hbm, ⟨33, _⟩ => ⟨S32x2, .f32⟩
  | .hbm, ⟨34, _⟩ => ⟨S32x2, .f32⟩
  | .hbm, ⟨35, _⟩ => ⟨S_, .f32⟩
  | .hbm, ⟨36, _⟩ => ⟨S32x2, .f32⟩
  | .hbm, ⟨37, _⟩ => ⟨S32x2, .f32⟩
  | .hbm, ⟨38, _⟩ => ⟨S_, .f32⟩
  | .hbm, ⟨39, _⟩ => ⟨S32, .f32⟩
  | .hbm, ⟨40, _⟩ => ⟨S32x1, .f32⟩
  | .hbm, ⟨41, _⟩ => ⟨S_, .f32⟩
  | .hbm, ⟨42, _⟩ => ⟨S32x1, .f32⟩
  | .hbm, ⟨43, _⟩ => ⟨S32x1, .f32⟩
  | .hbm, ⟨44, _⟩ => ⟨S_, .f32⟩
  | .hbm, ⟨45, _⟩ => ⟨S32x1, .f32⟩
  | .hbm, ⟨46, _⟩ => ⟨S32x1, .f32⟩
  | .hbm, ⟨47, _⟩ => ⟨S32x2, .f32⟩
  | .hbm, ⟨48, _⟩ => ⟨S32x2, .f32⟩
  | .hbm, ⟨49, _⟩ => ⟨S_, .f32⟩
  | .hbm, ⟨50, _⟩ => ⟨S32x1024x1024, .f32⟩
  | .hbm, ⟨51, _⟩ => ⟨S_, .f32⟩
  | .hbm, ⟨52, _⟩ => ⟨S32x1024x1024, .f32⟩
  | .hbm, ⟨53, _⟩ => ⟨S32x1024x1024, .f32⟩
  | .hbm, ⟨54, _⟩ => ⟨S32x1x1024x1024, .f32⟩
  | .hbm, ⟨55, _⟩ => ⟨S32x2x1024x1024, .f32⟩
  | .hbm, ⟨56, _⟩ => ⟨S32x2x1024x1024, .f32⟩
  | .hbm, ⟨57, _⟩ => ⟨S32x2x1024x1024, .f32⟩
  | .hbm, ⟨58, _⟩ => ⟨S_, .f32⟩
  | .hbm, ⟨59, _⟩ => ⟨S32x1024x1024, .f32⟩
  | .hbm, ⟨60, _⟩ => ⟨S32x1x1024x1024, .f32⟩
  | .hbm, ⟨61, _⟩ => ⟨S32x1x1024x1024, .f32⟩
  | .hbm, ⟨62, _⟩ => ⟨S32x2x1024x1024, .f32⟩
  | .hbm, ⟨63, _⟩ => ⟨S32x2x1024x1024, .f32⟩
  | .hbm, ⟨64, _⟩ => ⟨S32x1x1024x1024, .i32⟩
  | .hbm, ⟨65, _⟩ => ⟨S_, .i32⟩
  | .hbm, ⟨66, _⟩ => ⟨S32x1x1024x1024, .i32⟩
  | .hbm, ⟨67, _⟩ => ⟨S32x1x1024x1024, .i1⟩
  | .hbm, ⟨68, _⟩ => ⟨S_, .i32⟩
  | .hbm, ⟨69, _⟩ => ⟨S32x1x1024x1024, .i32⟩
  | .hbm, ⟨70, _⟩ => ⟨S32x1x1024x1024, .i32⟩
  | .hbm, ⟨71, _⟩ => ⟨S32x1x1024x1024, .i32⟩
  | .hbm, ⟨72, _⟩ => ⟨S32x1x1024x1024x1, .i32⟩
  | .hbm, ⟨73, _⟩ => ⟨S1, .i32⟩
  | .hbm, ⟨74, _⟩ => ⟨S_, .i32⟩
  | .hbm, ⟨75, _⟩ => ⟨S32x1x1024x1024x1, .i32⟩
  | .hbm, ⟨76, _⟩ => ⟨S32x1x1024x1024x1, .i1⟩
  | .hbm, ⟨77, _⟩ => ⟨S1x1x1x1x1, .i32⟩
  | .hbm, ⟨78, _⟩ => ⟨S32x1x1024x1024x1, .i32⟩
  | .hbm, ⟨79, _⟩ => ⟨S32x1x1024x1024x1, .i1⟩
  | .hbm, ⟨80, _⟩ => ⟨S32x1x1024x1024x1, .i1⟩
  | .hbm, ⟨81, _⟩ => ⟨S_, .i1⟩
  | .hbm, ⟨82, _⟩ => ⟨S32x1x1024x1024, .i1⟩
  | .hbm, ⟨83, _⟩ => ⟨S32x1x1024x1024, .f32⟩
  | .hbm, ⟨84, _⟩ => ⟨S_, .f32⟩
  | .hbm, ⟨85, _⟩ => ⟨S32x1x1024x1024, .f32⟩
  | .hbm, ⟨86, _⟩ => ⟨S32x1x1024x1024, .f32⟩
  | .hbm, ⟨87, _⟩ => ⟨S32x1024x1024, .f32⟩
  | .hbm, ⟨88, _⟩ => ⟨S32x1024x1024, .f32⟩
  | .hbm, ⟨89, _⟩ => ⟨S32x1048576, .i32⟩
  | .hbm, ⟨90, _⟩ => ⟨S_, .i32⟩
  | .hbm, ⟨91, _⟩ => ⟨S32x1048576, .i32⟩
  | .hbm, ⟨92, _⟩ => ⟨S32x1048576, .i1⟩
  | .hbm, ⟨93, _⟩ => ⟨S_, .i32⟩
  | .hbm, ⟨94, _⟩ => ⟨S32x1048576, .i32⟩
  | .hbm, ⟨95, _⟩ => ⟨S32x1048576, .i32⟩
  | .hbm, ⟨96, _⟩ => ⟨S32x1048576, .i32⟩
  | .hbm, ⟨97, _⟩ => ⟨S32x1048576x1, .i32⟩
  | .hbm, ⟨98, _⟩ => ⟨S1, .i32⟩
  | .hbm, ⟨99, _⟩ => ⟨S_, .i32⟩
  | .hbm, ⟨100, _⟩ => ⟨S32x1048576x1, .i32⟩
  | .hbm, ⟨101, _⟩ => ⟨S32x1048576x1, .i1⟩
  | .hbm, ⟨102, _⟩ => ⟨S1x1x1, .i32⟩
  | .hbm, ⟨103, _⟩ => ⟨S32x1048576x1, .i32⟩
  | .hbm, ⟨104, _⟩ => ⟨S32x1048576x1, .i1⟩
  | .hbm, ⟨105, _⟩ => ⟨S32x1048576x1, .i1⟩
  | .hbm, ⟨106, _⟩ => ⟨S_, .i1⟩
  | .hbm, ⟨107, _⟩ => ⟨S32x1048576, .i1⟩
  | .hbm, ⟨108, _⟩ => ⟨S32x1048576, .f32⟩
  | .hbm, ⟨109, _⟩ => ⟨S_, .f32⟩
  | .hbm, ⟨110, _⟩ => ⟨S32x1048576, .f32⟩
  | .hbm, ⟨111, _⟩ => ⟨S32x1048576, .f32⟩
  | .hbm, ⟨112, _⟩ => ⟨S32x1024x1024, .f32⟩
  | .hbm, ⟨113, _⟩ => ⟨S32x1024x1024, .f32⟩
  | .hbm, ⟨114, _⟩ => ⟨S_, .f32⟩
  | .hbm, ⟨115, _⟩ => ⟨S32, .f32⟩
  | .hbm, ⟨116, _⟩ => ⟨S_, .f32⟩
  | .hbm, ⟨117, _⟩ => ⟨S32, .f32⟩
  | .hbm, ⟨118, _⟩ => ⟨S32, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S32x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_call0_cst_0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_cst_1 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_v35 : Ref sig .tc := ⟨.hbm, 63, rfl⟩
abbrev main_v36 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_cst : Ref sig .tc := ⟨.hbm, 84, rfl⟩
abbrev main_call1_v14 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_cst : Ref sig .tc := ⟨.hbm, 109, rfl⟩
abbrev main_call2_v14 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_cst_10 : Ref sig .tc := ⟨.hbm, 114, rfl⟩
abbrev main_v44 : Ref sig .tc := ⟨.hbm, 115, rfl⟩
abbrev main_cst_11 : Ref sig .tc := ⟨.hbm, 116, rfl⟩
abbrev main_v45 : Ref sig .tc := ⟨.hbm, 117, rfl⟩
abbrev main_v46 : Ref sig .tc := ⟨.hbm, 118, rfl⟩
abbrev main_cst_12 : Ref sig .tc := ⟨.hbm, 119, rfl⟩
abbrev main_v47 : Ref sig .tc := ⟨.hbm, 120, rfl⟩
abbrev main_cst_13 : Ref sig .tc := ⟨.hbm, 121, rfl⟩
abbrev main_v48 : Ref sig .tc := ⟨.hbm, 122, rfl⟩

abbrev nD : Nat := 1
abbrev τ : Topo := Topo.v7x

variable {F : FTy → Type} [FloatOps F]

class Facts₀ : Prop where
  bcast_S32_S32x1x1_0 : S32.BroadcastsInDim S32x1x1 (![0] : Fin 1 → Fin S32x1x1.rank)
  bcast_S_S32x2 : S_.BroadcastsInDim S32x2 (![] : Fin 0 → Fin S32x2.rank)
  bcast_S_S32x1x1 : S_.BroadcastsInDim S32x1x1 (![] : Fin 0 → Fin S32x1x1.rank)
  bcast_S_S32x1024x1024 : S_.BroadcastsInDim S32x1024x1024 (![] : Fin 0 → Fin S32x1024x1024.rank)
  bcast_S32x1x1_S32x1024x1024_0_1_2 : S32x1x1.BroadcastsInDim S32x1024x1024 (![0, 1, 2] : Fin 3 → Fin S32x1024x1024.rank)
  bcast_S32x1024x1024_S32x1024x1024x1_0_1_2 : S32x1024x1024.BroadcastsInDim S32x1024x1024x1 (![0, 1, 2] : Fin 3 → Fin S32x1024x1024x1.rank)
  concatenates_S32x1024x1024x1_S32x1024x1024x1_S32x1024x1024x2_d3 : Shape.Concatenates [S32x1024x1024x1, S32x1024x1024x1] S32x1024x1024x2 3
  reducesTo_S32x2_S32_d1 : S32x2.ReducesTo [1] S32
  h_S_ : 0 < S_.numel
  bcast_S32_S32x1_0 : S32.BroadcastsInDim S32x1 (![0] : Fin 1 → Fin S32x1.rank)
  bcast_S32x1_S32x2_0_1 : S32x1.BroadcastsInDim S32x2 (![0, 1] : Fin 2 → Fin S32x2.rank)
  bcast_S_S32x1 : S_.BroadcastsInDim S32x1 (![] : Fin 0 → Fin S32x1.rank)
  reducesTo_S32x2x1024x1024_S32x1024x1024_d1 : S32x2x1024x1024.ReducesTo [1] S32x1024x1024
  bcast_S32x1024x1024_S32x1x1024x1024_0_2_3 : S32x1024x1024.BroadcastsInDim S32x1x1024x1024 (![0, 2, 3] : Fin 3 → Fin S32x1x1024x1024.rank)
  bcast_S32x1x1024x1024_S32x2x1024x1024_0_1_2_3 : S32x1x1024x1024.BroadcastsInDim S32x2x1024x1024 (![0, 1, 2, 3] : Fin 4 → Fin S32x2x1024x1024.rank)
  bcast_S_S32x1x1024x1024 : S_.BroadcastsInDim S32x1x1024x1024 (![] : Fin 0 → Fin S32x1x1024x1024.rank)
  shapeCasts_S32x1x1024x1024_S32x1x1024x1024x1 : S32x1x1024x1024.ShapeCasts S32x1x1024x1024x1
  bcast_S_S32x1x1024x1024x1 : S_.BroadcastsInDim S32x1x1024x1024x1 (![] : Fin 0 → Fin S32x1x1024x1024x1.rank)
  bcast_S1_S1x1x1x1x1_4 : S1.BroadcastsInDim S1x1x1x1x1 (![4] : Fin 1 → Fin S1x1x1x1x1.rank)
  bcast_S1x1x1x1x1_S32x1x1024x1024x1_0_1_2_3_4 : S1x1x1x1x1.BroadcastsInDim S32x1x1024x1024x1 (![0, 1, 2, 3, 4] : Fin 5 → Fin S32x1x1024x1024x1.rank)
  reducesTo_S32x1x1024x1024x1_S32x1x1024x1024_d4 : S32x1x1024x1024x1.ReducesTo [4] S32x1x1024x1024
  shapeCasts_S32x1x1024x1024_S32x1024x1024 : S32x1x1024x1024.ShapeCasts S32x1024x1024
  shapeCasts_S32x1024x1024_S32x1048576 : S32x1024x1024.ShapeCasts S32x1048576
  bcast_S_S32x1048576 : S_.BroadcastsInDim S32x1048576 (![] : Fin 0 → Fin S32x1048576.rank)
  shapeCasts_S32x1048576_S32x1048576x1 : S32x1048576.ShapeCasts S32x1048576x1
  bcast_S_S32x1048576x1 : S_.BroadcastsInDim S32x1048576x1 (![] : Fin 0 → Fin S32x1048576x1.rank)
  bcast_S1_S1x1x1_2 : S1.BroadcastsInDim S1x1x1 (![2] : Fin 1 → Fin S1x1x1.rank)
  bcast_S1x1x1_S32x1048576x1_0_1_2 : S1x1x1.BroadcastsInDim S32x1048576x1 (![0, 1, 2] : Fin 3 → Fin S32x1048576x1.rank)
  reducesTo_S32x1048576x1_S32x1048576_d2 : S32x1048576x1.ReducesTo [2] S32x1048576
  shapeCasts_S32x1048576_S32x1024x1024 : S32x1048576.ShapeCasts S32x1024x1024
  reducesTo_S32x1024x1024_S32_d1_2 : S32x1024x1024.ReducesTo [1, 2] S32
  reducesTo_S32_S_d0 : S32.ReducesTo [0] S_
  scatter_S32x2_S32x1024x1024x2_S32x1024x1024_n_01_01_3_wf : ScatterDims.WF S32x2 S32x1024x1024x2 S32x1024x1024 [] [0, 1] [0, 1] 3
  gather_S32x2x1024x1024_S32x1x1024x1024x1_S32x1x1024x1024_n_1_023_023_1_4_1111_wf : GatherDims.WF S32x2x1024x1024 S32x1x1024x1024x1 S32x1x1024x1024 [] [1] [0, 2, 3] [1] [0, 2, 3] 4 ![1, 1, 1, 1]
  gather_S32x2_S32x1048576x1_S32x1048576_n_1_0_0_1_2_11_wf : GatherDims.WF S32x2 S32x1048576x1 S32x1048576 [] [1] [0] [1] [0] 2 ![1, 1]

variable [Facts₀]

def scatter_S32x2_S32x1024x1024x2_S32x1024x1024_n_01_01_3 : ScatterDims S32x2 S32x1024x1024x2 S32x1024x1024 where
  updateWindowDims := []
  insertedWindowDims := [0, 1]
  scatterDimsToOperandDims := [0, 1]
  indexVectorDim := 3
  wf := scatter_S32x2_S32x1024x1024x2_S32x1024x1024_n_01_01_3_wf
def gather_S32x2x1024x1024_S32x1x1024x1024x1_S32x1x1024x1024_n_1_023_023_1_4_1111 : GatherDims S32x2x1024x1024 S32x1x1024x1024x1 S32x1x1024x1024 where
  offsetDims := []
  collapsedSliceDims := [1]
  operandBatchingDims := [0, 2, 3]
  startIndicesBatchingDims := [0, 2, 3]
  startIndexMap := [1]
  indexVectorDim := 4
  sliceSizes := ![1, 1, 1, 1]
  wf := gather_S32x2x1024x1024_S32x1x1024x1024x1_S32x1x1024x1024_n_1_023_023_1_4_1111_wf
def gather_S32x2_S32x1048576x1_S32x1048576_n_1_0_0_1_2_11 : GatherDims S32x2 S32x1048576x1 S32x1048576 where
  offsetDims := []
  collapsedSliceDims := [1]
  operandBatchingDims := [0]
  startIndicesBatchingDims := [0]
  startIndexMap := [1]
  indexVectorDim := 2
  sliceSizes := ![1, 1]
  wf := gather_S32x2_S32x1048576x1_S32x1048576_n_1_0_0_1_2_11_wf

class Facts : Prop extends Facts₀ where

variable [Facts]
-- ==== Proof.RefGen.lean ====
/-
  The reference's run and its read-at-an-index lemmas, gathered under one import.
-/
import proofs.«425937_j45887430590783_3_alg».proof.Proof.RefRun
import proofs.«425937_j45887430590783_3_alg».proof.Proof.RefRead
-- ==== Proof.Spec.lean ====
/-
  The two programs' common result, written once as plain mathematics over the extended reals.

  For a batch of 32 samples of 1024 × 1024 pixels with two logits per pixel and a label in {0, 1} per pixel,
  both programs compute the mean over the samples of a class-weighted mean negative log-likelihood:

    * `cnt c b`     the number of pixels of sample `b` whose label is `c`;
    * `wts n0 n1 c` the weight of class `c` from the two class counts: `0.4 · (1 - n_c / (n0 + n1))` plus
                    `0.6` times the mean over the two classes of `1 - n_c / (n0 + n1)` (the literals are kept as the
                    words both programs carry, never evaluated);
    * the per-pixel loss, in the two forms the programs use: the reference's `-(log_softmax)` at the label,
      `-((o_l - M) - log (exp (o_0 - M) + exp (o_1 - M)))` with `M` the larger logit, and the kernel's
      softplus of the signed margin, `max x 0 + log (1 + exp (-|x|))` with `x = ±(o_1 - o_0)`;
    * per sample the quotient of the weighted loss sum by the weight sum, in the reference's form (a sum over the
      pixels of weight × loss) and in the kernel's (linear in three per-sample sums: the label sum, the loss sum
      and the label-times-loss sum);
    * `meanOf`      the mean over the 32 samples.
-/
import Idealize.ShloMosaic.PureOps.Ideal
import Idealize.ShloMosaic.Lib.ValueIdx

noncomputable section

namespace Cert.Spec

open Idealize.ShloMosaic Idealize.ShloMosaic.ValueIdx

/-- The logits' shape and the labels' shape. -/
abbrev SO : Shape := ⟨4, ![32, 2, 1024, 1024]⟩
abbrev ST : Shape := ⟨3, ![32, 1024, 1024]⟩

variable (o : SO.Idx → EReal) (t : ST.Idx → BitVec 32)

/-- Logit `c` of pixel `(h, w)` of sample `b`. -/
def lg (c : Fin 2) (b : Fin 32) (h w : Fin 1024) : EReal := o (ix4 b c h w)

/-- The label of pixel `(h, w)` of sample `b`, as the word the input holds. -/
def lab (b : Fin 32) (h w : Fin 1024) : BitVec 32 := t (ix3 b h w)

/-- The label as a class, when it is 0 or 1 (any other word reads as class 1; the precondition excludes those). -/
def cls (b : Fin 32) (h w : Fin 1024) : Fin 2 := if lab t b h w = 0#32 then 0 else 1

/-! ## The words both programs carry -/

abbrev zeroW : EReal := Ideal.ofBits .f32 0x00000000#32
abbrev oneW : EReal := Ideal.ofBits .f32 0x3F800000#32
abbrev twoW : EReal := Ideal.ofBits .f32 0x40000000#32
abbrev w04 : EReal := Ideal.ofBits .f32 0x3ECCCCCD#32
abbrev w06 : EReal := Ideal.ofBits .f32 0x3F19999A#32
abbrev hwW : EReal := Ideal.ofBits .f32 0x49800000#32
abbrev w32 : EReal := Ideal.ofBits .f32 0x42000000#32

/-! ## The class weights from the class counts -/

/-- `1 - n_c / (n0 + n1)`. -/
def invFreq (n0 n1 : EReal) (c : Fin 2) : EReal :=
  oneW - Ideal.div (if c = 0 then n0 else n1) (n0 + n1)

/-- The weight of class `c`: `invFreq · 0.4 + ((invFreq 0 + invFreq 1) / 2) · 0.6`. -/
def wts (n0 n1 : EReal) (c : Fin 2) : EReal :=
  invFreq n0 n1 c * w04 + Ideal.div (invFreq n0 n1 0 + invFreq n0 n1 1) twoW * w06

/-! ## The reference's form -/

/-- The number of pixels of sample `b` with label `c`. -/
def cnt (c : Fin 2) (b : Fin 32) : EReal :=
  ∑ h : Fin 1024, ∑ w : Fin 1024, if lab t b h w = BitVec.ofNat 32 c.val then (1 : EReal) else 0

/-- The larger of a pixel's two logits. -/
def mx (b : Fin 32) (h w : Fin 1024) : EReal := max (lg o 0 b h w) (lg o 1 b h w)

/-- The reference's per-pixel loss: minus the log-softmax of the two logits at the label's class. -/
def nllR (b : Fin 32) (h w : Fin 1024) : EReal :=
  -((lg o (cls t b h w) b h w - mx o b h w)
      - Ideal.log (Ideal.exp (lg o 0 b h w - mx o b h w) + Ideal.exp (lg o 1 b h w - mx o b h w)))

/-- The weight of a pixel: its label's class weight, from its sample's class counts. -/
def wpix (b : Fin 32) (h w : Fin 1024) : EReal := wts (cnt t 0 b) (cnt t 1 b) (cls t b h w)

def numR (b : Fin 32) : EReal := ∑ h : Fin 1024, ∑ w : Fin 1024, wpix t b h w * nllR o t b h w
def denR (b : Fin 32) : EReal := ∑ h : Fin 1024, ∑ w : Fin 1024, wpix t b h w

/-! ## The kernel's form -/

/-- The label read as a number. -/
def tf (b : Fin 32) (h w : Fin 1024) : EReal := (((lab t b h w).toInt : ℝ) : EReal)

/-- The kernel's per-pixel loss: the softplus of the margin signed by the label. -/
def nllK (b : Fin 32) (h w : Fin 1024) : EReal :=
  let d := lg o 1 b h w - lg o 0 b h w
  let x := if lab t b h w = 0#32 then d else zeroW - d
  max x zeroW + Ideal.log1p (Ideal.exp (zeroW - max x (-x)))

/-- The three per-sample sums the kernel emits. -/
def cnt1 (b : Fin 32) : EReal := ∑ h : Fin 1024, ∑ w : Fin 1024, tf t b h w
def sAll (b : Fin 32) : EReal := ∑ h : Fin 1024, ∑ w : Fin 1024, nllK o t b h w
def sOne (b : Fin 32) : EReal := ∑ h : Fin 1024, ∑ w : Fin 1024, tf t b h w * nllK o t b h w

/-- The kernel's class counts: class 1 is the label sum, class 0 the rest of the 2^20 pixels. -/
def cK0 (b : Fin 32) : EReal := hwW - cnt1 t b
def wK (c : Fin 2) (b : Fin 32) : EReal := wts (cK0 t b) (cnt1 t b) c

def numK (b : Fin 32) : EReal := wK t 0 b * (sAll o t b - sOne o t b) + wK t 1 b * sOne o t b
def denK (b : Fin 32) : EReal := wK t 0 b * cK0 t b + wK t 1 b * cnt1 t b

/-! ## The mean over the samples -/

def meanOf (num den : Fin 32 → EReal) : EReal :=
  Ideal.div (∑ b : Fin 32, Ideal.div (num b) (den b)) w32

end Cert.Spec

end
-- ==== Proof.PreFacts.lean ====
/-
  What the precondition says of the inputs: every logit is a real number (its absolute value is below +∞) and
  every label is one of the two classes, the word 0 or the word 1.
-/
import proofs.«425937_j45887430590783_3_alg».proof.Pre_finite_inputs
import proofs.«425937_j45887430590783_3_alg».proof.Proof.Spec
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

instance : Subsingleton S_.Idx := ⟨fun a b => funext fun d => d.elim0⟩

/-- An extended real whose absolute value `max x (-x)` is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem of_pre [Facts] (x0 : Cert.Spec.SO.Idx → EReal) (x1 : Cert.Spec.ST.Idx → BitVec 32)
    (h : fn (F := Ideal) x0 x1 = fun _ => 1#1) :
    (∀ i, ∃ r : ℝ, x0 i = (r : EReal)) ∧ (∀ i, x1 i = 0#32 ∨ x1 i = 1#32) := by
  have h0 := congrFun h ValueIdx.ix0
  dsimp only [fn] at h0
  obtain ⟨h3, h9⟩ := IntOp.andi_eq_one.1 h0
  refine ⟨fun i => ?_, fun i => ?_⟩
  · have e := Host.reduce_andi_all _ _ _ _ _ h3 i
    have e' : Ideal.cmp .olt (max (x0 i) (-(x0 i))) (Ideal.ofBits .f32 0x7F800000#32) = 1#1 := e
    have hinf : Ideal.ofBits .f32 0x7F800000#32 = ⊤ := by simp [Ideal.ofBits, Ideal.ieee]
    rw [hinf] at e'
    refine real_of_abs_lt_top _ ?_
    by_contra hn
    simp [Ideal.cmp, hn] at e'
  · have e := Host.reduce_andi_all _ _ _ _ _ h9 i
    have e' : IntOp.ori (IntOp.cmpi .eq (x1 i) 0#32) (IntOp.cmpi .eq (x1 i) 1#32) = 1#1 := e
    rcases IntOp.ori_eq_one.1 e' with e1 | e1
    · exact Or.inl (IntOp.cmpi_eq.1 e1)
    · exact Or.inr (IntOp.cmpi_eq.1 e1)

end Cert.PreFacts

end
-- ==== Proof.Algebra.lean ====
/-
  The algebra joining the two forms of the per-sample quotient (Spec.lean): for finite logits and labels in
  {0, 1} the kernel's numerator and denominator — linear in the label sum, the loss sum and the label-times-loss
  sum — are the reference's sums over the pixels of weight × loss and of weight.

  Every quantity is shown to be the coercion of a real: the literal words, the per-pixel loss (where the two
  forms meet by the softplus form of minus the log-softmax of two logits), the label read as a number, the
  class counts and the class weights. The coercion is pushed out of the finite sums, and the two identities
  are then linear identities between finite sums of reals.
-/
import proofs.«425937_j45887430590783_3_alg».proof.Proof.Spec
import Mathlib.Analysis.SpecialFunctions.Log.Basic

noncomputable section

namespace Cert.Algebra

open Idealize.ShloMosaic Idealize.ShloMosaic.ValueIdx Cert.Spec

/-! ## The literal words as extended reals -/

theorem zeroW_eq : zeroW = 0 := by
  simp [Ideal.ofBits, Ideal.ieee]

theorem oneW_eq : oneW = ((1 : ℝ) : EReal) := by
  simp [Ideal.ofBits, Ideal.ieee, -EReal.coe_mul]; norm_num

theorem twoW_eq : twoW = ((2 : ℝ) : EReal) := by
  simp [Ideal.ofBits, Ideal.ieee, -EReal.coe_mul]; norm_num

/-- The pixel count of a sample, 2 ^ 20. -/
theorem hwW_eq : hwW = ((1048576 : ℝ) : EReal) := by
  simp [Ideal.ofBits, Ideal.ieee, -EReal.coe_mul]; norm_num

/-- The two mixing coefficients are finite; their values play no part. -/
theorem w04_coe : ∃ r : ℝ, w04 = (r : EReal) := by
  have h1 : w04 ≠ ⊤ := by simp [Ideal.ofBits, Ideal.ieee, -EReal.coe_mul]
  have h2 : w04 ≠ ⊥ := by simp [Ideal.ofBits, Ideal.ieee, -EReal.coe_mul]
  exact ⟨w04.toReal, (EReal.coe_toReal h1 h2).symm⟩

theorem w06_coe : ∃ r : ℝ, w06 = (r : EReal) := by
  have h1 : w06 ≠ ⊤ := by simp [Ideal.ofBits, Ideal.ieee, -EReal.coe_mul]
  have h2 : w06 ≠ ⊥ := by simp [Ideal.ofBits, Ideal.ieee, -EReal.coe_mul]
  exact ⟨w06.toReal, (EReal.coe_toReal h1 h2).symm⟩

/-! ## Coercion of a maximum and of finite sums -/

theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A double sum of coerced reals is the coercion of the double sum. -/
theorem coe_sum2 {α β : Type*} [Fintype α] [Fintype β] (f : α → β → ℝ) :
    ∑ a : α, ∑ b : β, (f a b : EReal) = ((∑ a : α, ∑ b : β, f a b : ℝ) : EReal) := by
  rw [coe_sum]
  exact Finset.sum_congr rfl fun a _ => (coe_sum _ _).symm

/-! ## The per-pixel loss over the reals -/

/-- The kernel's form: the softplus of the margin x, max x 0 + log (1 + exp (-|x|)). -/
def kerL (x : ℝ) : ℝ := max x 0 + Real.log (1 + Real.exp (0 - max x (-x)))

/-- The reference's form: minus the log-softmax of the pair (a, c) at the entry whose logit is x. -/
def refL (a c x : ℝ) : ℝ :=
  -((x - max a c) - Real.log (Real.exp (a - max a c) + Real.exp (c - max a c)))

/-- At the first entry: split on which logit is larger; the larger one's exponential is exp 0 = 1. -/
theorem kerL_eq_refL_fst (a c : ℝ) : kerL (c - a) = refL a c a := by
  unfold kerL refL
  rcases le_total a c with h | h
  · have h1 : max a c = c := max_eq_right h
    have h2 : max (c - a) 0 = c - a := max_eq_left (by linarith)
    have h3 : max (c - a) (-(c - a)) = c - a := max_eq_left (by linarith)
    rw [h1, h2, h3, sub_self, Real.exp_zero, add_comm (Real.exp (a - c)) 1]
    have : (0 : ℝ) - (c - a) = a - c := by ring
    rw [this]; ring
  · have h1 : max a c = a := max_eq_left h
    have h2 : max (c - a) 0 = 0 := max_eq_right (by linarith)
    have h3 : max (c - a) (-(c - a)) = -(c - a) := max_eq_right (by linarith)
    rw [h1, h2, h3, sub_self, Real.exp_zero]
    have : (0 : ℝ) - -(c - a) = c - a := by ring
    rw [this]; ring

/-- At the second entry: the same with the two logits exchanged. -/
theorem kerL_eq_refL_snd (a c : ℝ) : kerL (0 - (c - a)) = refL a c c := by
  have h := kerL_eq_refL_fst c a
  have e : (0 : ℝ) - (c - a) = a - c := by ring
  rw [e, h]
  unfold refL
  rw [max_comm c a, add_comm (Real.exp (c - max a c))]

/-! ## The per-pixel loss over the extended reals, at real logits -/

theorem kerLoss_coe (x : ℝ) :
    max (x : EReal) zeroW + Ideal.log1p (Ideal.exp (zeroW - max (x : EReal) (-(x : EReal))))
      = ((kerL x : ℝ) : EReal) := by
  have hpos : (0 : ℝ) < 1 + Real.exp (0 - max x (-x)) := by positivity
  unfold kerL
  rw [zeroW_eq, ← EReal.coe_zero, ← EReal.coe_neg, ← coe_max, ← coe_max, ← EReal.coe_sub, Ideal.exp_coe,
    Ideal.log1p, ← EReal.coe_one, ← EReal.coe_add, Ideal.log_coe, if_neg (not_le.mpr hpos), ← EReal.coe_add]

theorem refLoss_coe (a c x : ℝ) :
    -(((x : EReal) - max (a : EReal) (c : EReal))
        - Ideal.log (Ideal.exp ((a : EReal) - max (a : EReal) (c : EReal))
            + Ideal.exp ((c : EReal) - max (a : EReal) (c : EReal))))
      = ((refL a c x : ℝ) : EReal) := by
  have hpos : (0 : ℝ) < Real.exp (a - max a c) + Real.exp (c - max a c) := by positivity
  unfold refL
  rw [← coe_max, ← EReal.coe_sub, ← EReal.coe_sub, ← EReal.coe_sub, Ideal.exp_coe, Ideal.exp_coe,
    ← EReal.coe_add, Ideal.log_coe, if_neg (not_le.mpr hpos), ← EReal.coe_sub, ← EReal.coe_neg]

/-! ## The pixels of a sample: loss, label, class -/

section Sample

variable (o : SO.Idx → EReal) (t : ST.Idx → BitVec 32)

/-- The label as a real: 0 at label 0, else 1. -/
def ell (b : Fin 32) (h w : Fin 1024) : ℝ := if lab t b h w = 0#32 then 0 else 1

/-- The loss of a pixel over the reals, from real logits r. -/
def nu (r : SO.Idx → ℝ) (b : Fin 32) (h w : Fin 1024) : ℝ :=
  if lab t b h w = 0#32 then refL (r (ix4 b 0 h w)) (r (ix4 b 1 h w)) (r (ix4 b 0 h w))
  else refL (r (ix4 b 0 h w)) (r (ix4 b 1 h w)) (r (ix4 b 1 h w))

variable {o}

theorem nllR_coe (r : SO.Idx → ℝ) (hr : ∀ i, o i = (r i : EReal)) (b : Fin 32) (h w : Fin 1024) :
    nllR o t b h w = ((nu t r b h w : ℝ) : EReal) := by
  unfold nllR mx cls lg nu
  by_cases h0 : lab t b h w = 0#32
  · rw [if_pos h0, if_pos h0, hr, hr, refLoss_coe]
  · rw [if_neg h0, if_neg h0, hr, hr, refLoss_coe]

theorem nllK_coe (r : SO.Idx → ℝ) (hr : ∀ i, o i = (r i : EReal)) (b : Fin 32) (h w : Fin 1024) :
    nllK o t b h w = ((nu t r b h w : ℝ) : EReal) := by
  unfold nllK lg nu
  by_cases h0 : lab t b h w = 0#32
  · simp only [if_pos h0]
    rw [hr, hr, ← EReal.coe_sub, kerLoss_coe, kerL_eq_refL_fst]
  · simp only [if_neg h0]
    rw [hr, hr, ← EReal.coe_sub, zeroW_eq, ← EReal.coe_zero, ← EReal.coe_sub, EReal.coe_zero, ← zeroW_eq,
      kerLoss_coe, kerL_eq_refL_snd]

variable {t}

theorem tf_coe (hlab : ∀ i, t i = 0#32 ∨ t i = 1#32) (b : Fin 32) (h w : Fin 1024) :
    tf t b h w = ((ell t b h w : ℝ) : EReal) := by
  unfold tf ell
  have hl : lab t b h w = 0#32 ∨ lab t b h w = 1#32 := hlab (ix3 b h w)
  rcases hl with h0 | h1
  · rw [if_pos h0, h0]
    have : ((0#32 : BitVec 32).toInt : ℝ) = 0 := by
      have : (0#32 : BitVec 32).toInt = 0 := by decide
      rw [this, Int.cast_zero]
    rw [this]
  · have hne : lab t b h w ≠ 0#32 := by rw [h1]; decide
    rw [if_neg hne, h1]
    have : ((1#32 : BitVec 32).toInt : ℝ) = 1 := by
      have : (1#32 : BitVec 32).toInt = 1 := by decide
      rw [this, Int.cast_one]
    rw [this]

/-- The indicator of label 1 is the label as a real. -/
theorem ind_one_coe (hlab : ∀ i, t i = 0#32 ∨ t i = 1#32) (b : Fin 32) (h w : Fin 1024) :
    (if lab t b h w = BitVec.ofNat 32 (1 : Fin 2).val then (1 : EReal) else 0) = ((ell t b h w : ℝ) : EReal) := by
  unfold ell
  have e1 : BitVec.ofNat 32 (1 : Fin 2).val = 1#32 := rfl
  rw [e1]
  have hl : lab t b h w = 0#32 ∨ lab t b h w = 1#32 := hlab (ix3 b h w)
  rcases hl with h0 | h1
  · have hne : lab t b h w ≠ 1#32 := by rw [h0]; decide
    rw [if_neg hne, if_pos h0, EReal.coe_zero]
  · have hne : lab t b h w ≠ 0#32 := by rw [h1]; decide
    rw [if_pos h1, if_neg hne, EReal.coe_one]

/-- The indicator of label 0 is one minus the label as a real. -/
theorem ind_zero_coe (b : Fin 32) (h w : Fin 1024) :
    (if lab t b h w = BitVec.ofNat 32 (0 : Fin 2).val then (1 : EReal) else 0)
      = ((1 - ell t b h w : ℝ) : EReal) := by
  unfold ell
  have e0 : BitVec.ofNat 32 (0 : Fin 2).val = 0#32 := rfl
  rw [e0]
  by_cases h0 : lab t b h w = 0#32
  · rw [if_pos h0, if_pos h0, sub_zero, EReal.coe_one]
  · rw [if_neg h0, if_neg h0, sub_self, EReal.coe_zero]

variable (t)

/-- The number of label-1 pixels of a sample, as a real. -/
def N1 (b : Fin 32) : ℝ := ∑ h : Fin 1024, ∑ w : Fin 1024, ell t b h w

/-- The pixels that are not label 1 are the rest of the 1024 · 1024. -/
theorem sum_one_sub_ell (b : Fin 32) :
    ∑ h : Fin 1024, ∑ w : Fin 1024, (1 - ell t b h w) = 1048576 - N1 t b := by
  unfold N1
  simp only [Finset.sum_sub_distrib, Finset.sum_const, Finset.card_univ, Fintype.card_fin, nsmul_eq_mul]
  norm_num

variable {t}

theorem cnt_one_coe (hlab : ∀ i, t i = 0#32 ∨ t i = 1#32) (b : Fin 32) :
    cnt t 1 b = ((N1 t b : ℝ) : EReal) := by
  unfold cnt N1
  simp only [ind_one_coe hlab]
  rw [coe_sum2]

theorem cnt_zero_coe (b : Fin 32) : cnt t 0 b = ((1048576 - N1 t b : ℝ) : EReal) := by
  unfold cnt
  simp only [ind_zero_coe]
  rw [coe_sum2, sum_one_sub_ell]

theorem cnt1_coe (hlab : ∀ i, t i = 0#32 ∨ t i = 1#32) (b : Fin 32) :
    cnt1 t b = ((N1 t b : ℝ) : EReal) := by
  unfold cnt1 N1
  simp only [tf_coe hlab]
  rw [coe_sum2]

theorem cK0_coe (hlab : ∀ i, t i = 0#32 ∨ t i = 1#32) (b : Fin 32) :
    cK0 t b = ((1048576 - N1 t b : ℝ) : EReal) := by
  rw [cK0, cnt1_coe hlab, hwW_eq, ← EReal.coe_sub]

end Sample

/-! ## The class weights at real counts with a nonzero total -/

theorem invFreq_coe (n0 n1 : ℝ) (hn : n0 + n1 ≠ 0) (c : Fin 2) :
    invFreq (n0 : EReal) (n1 : EReal) c
      = ((1 - (if c = 0 then n0 else n1) * (1 / (n0 + n1)) : ℝ) : EReal) := by
  unfold invFreq
  rw [oneW_eq, ← EReal.coe_add, Ideal.div_coe hn]
  by_cases hc : c = 0
  · rw [if_pos hc, if_pos hc, ← EReal.coe_mul, ← EReal.coe_sub]
  · rw [if_neg hc, if_neg hc, ← EReal.coe_mul, ← EReal.coe_sub]

theorem wts_coe (n0 n1 : ℝ) (hn : n0 + n1 ≠ 0) (c : Fin 2) :
    ∃ ω : ℝ, wts (n0 : EReal) (n1 : EReal) c = (ω : EReal) := by
  obtain ⟨q4, h4⟩ := w04_coe
  obtain ⟨q6, h6⟩ := w06_coe
  unfold wts
  rw [invFreq_coe n0 n1 hn c, invFreq_coe n0 n1 hn 0, invFreq_coe n0 n1 hn 1, h4, h6, twoW_eq,
    ← EReal.coe_add, Ideal.div_coe (two_ne_zero), ← EReal.coe_mul, ← EReal.coe_mul, ← EReal.coe_mul,
    ← EReal.coe_add]
  exact ⟨_, rfl⟩

/-! ## The weights of a sample -/

section Weights

variable {t : ST.Idx → BitVec 32}

/-- Both programs' class weights of a sample are one pair of reals ω, and a pixel's weight is
    ω 0 · (1 - label) + ω 1 · label. -/
theorem weights_coe (hlab : ∀ i, t i = 0#32 ∨ t i = 1#32) (b : Fin 32) :
    ∃ ω : Fin 2 → ℝ, (∀ c, wK t c b = ((ω c : ℝ) : EReal)) ∧
      ∀ h w, wpix t b h w = ((ω 0 * (1 - ell t b h w) + ω 1 * ell t b h w : ℝ) : EReal) := by
  have hn : (1048576 - N1 t b) + N1 t b ≠ 0 := by rw [sub_add_cancel]; norm_num
  choose ω hω using fun c => wts_coe (1048576 - N1 t b) (N1 t b) hn c
  refine ⟨ω, fun c => ?_, fun h w => ?_⟩
  · rw [wK, cK0_coe hlab, cnt1_coe hlab, hω]
  · rw [wpix, cnt_zero_coe, cnt_one_coe hlab, hω]
    unfold cls ell
    by_cases h0 : lab t b h w = 0#32
    · rw [if_pos h0, if_pos h0, sub_zero, mul_one, mul_zero, add_zero]
    · rw [if_neg h0, if_neg h0, sub_self, mul_zero, mul_one, zero_add]

end Weights

/-! ## The two identities -/

variable (o : SO.Idx → EReal) (t : ST.Idx → BitVec 32)

theorem den_eq (hlab : ∀ i, t i = 0#32 ∨ t i = 1#32) (b : Fin 32) :
    denK t b = denR t b := by
  obtain ⟨ω, hK, hP⟩ := weights_coe hlab b
  unfold denK denR
  simp only [hP]
  rw [hK, hK, cK0_coe hlab, cnt1_coe hlab, coe_sum2, ← EReal.coe_mul, ← EReal.coe_mul, ← EReal.coe_add,
    EReal.coe_eq_coe_iff]
  simp only [Finset.sum_add_distrib, ← Finset.mul_sum]
  rw [sum_one_sub_ell]
  rfl

theorem num_eq (hfin : ∀ i, ∃ r : ℝ, o i = (r : EReal)) (hlab : ∀ i, t i = 0#32 ∨ t i = 1#32) (b : Fin 32) :
    numK o t b = numR o t b := by
  choose r hr using hfin
  obtain ⟨ω, hK, hP⟩ := weights_coe hlab b
  have hAll : sAll o t b = ((∑ h : Fin 1024, ∑ w : Fin 1024, nu t r b h w : ℝ) : EReal) := by
    unfold sAll
    simp only [nllK_coe t r hr]
    rw [coe_sum2]
  have hOne : sOne o t b
      = ((∑ h : Fin 1024, ∑ w : Fin 1024, ell t b h w * nu t r b h w : ℝ) : EReal) := by
    unfold sOne
    simp only [nllK_coe t r hr, tf_coe hlab, ← EReal.coe_mul]
    rw [coe_sum2]
  unfold numK numR
  simp only [hP, nllR_coe t r hr, ← EReal.coe_mul]
  rw [hK, hK, hAll, hOne, coe_sum2, ← EReal.coe_sub, ← EReal.coe_mul, ← EReal.coe_mul, ← EReal.coe_add,
    EReal.coe_eq_coe_iff]
  have hsplit : ∀ h w, (ω 0 * (1 - ell t b h w) + ω 1 * ell t b h w) * nu t r b h w
      = ω 0 * nu t r b h w - ω 0 * (ell t b h w * nu t r b h w) + ω 1 * (ell t b h w * nu t r b h w) :=
    fun h w => by ring
  simp only [hsplit, Finset.sum_add_distrib, Finset.sum_sub_distrib, ← Finset.mul_sum]
  ring

theorem mean_eq (hfin : ∀ i, ∃ r : ℝ, o i = (r : EReal)) (hlab : ∀ i, t i = 0#32 ∨ t i = 1#32) :
    meanOf (numK o t) (denK t) = meanOf (numR o t) (denR t) := by
  have hn : numK o t = numR o t := funext fun b => num_eq o t hfin hlab b
  have hd : denK t = denR t := funext fun b => den_eq t hlab b
  rw [hn, hd]

end Cert.Algebra

end
-- ==== Proof.PointVal.lean ====
/-
  One grid point of the kernel's region, at the ideal instance. Point `t` of the 32 (4 groups of 8 samples × 8 bands
  of 128 rows) reads the band's logits and labels and adds, to each of three scratch accumulators, the band's sum of a
  per-pixel quantity over its 128 rows and 1024 columns, for each of the group's 8 samples: the label as a number,
  the loss, and their product. At a group's first band the accumulators start from zero; at its last band they are
  copied to the three output blocks.
-/
import proofs.«425937_j45887430590783_3_alg».proof.Proof.Gen.KernelIdeal.Frame
import proofs.«425937_j45887430590783_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The logits and the labels as the program's memory holds them on core `c`. -/
abbrev xo (c : Dev nD) : Cert.Spec.SO.Idx → EReal := m ((c.tc : Thread nD τ).loc main_arg0)
abbrev xt (c : Dev nD) : Cert.Spec.ST.Idx → BitVec 32 := m ((c.tc : Thread nD τ).loc main_arg1)

/-- The sample that position `p` of point `t`'s group stands for, and the image row of row `r` of its band. -/
def smp (t : Fin cfg0.N) (p : Fin 8) : Fin 32 :=
  ⟨8 * (t.val / 8) + p.val, by
    have h : t.val < 32 := lt_of_lt_of_eq t.isLt (show cfg0.N = 32 from N_0)
    have := p.isLt; omega⟩
def row (t : Fin cfg0.N) (r : Fin 128) : Fin 1024 :=
  ⟨128 * (t.val % 8) + r.val, by have := r.isLt; omega⟩

/-- Band `t`'s sum of a per-pixel quantity over its 128 rows and 1024 columns, per sample of the group. -/
def band (f : Fin 32 → Fin 1024 → Fin 1024 → EReal) (t : Fin cfg0.N) : S8x1x1.Idx → EReal :=
  fun i => ∑ r : Fin 128, ∑ q : Fin 1024, f (smp t ⟨(i 0).val, (i 0).isLt⟩) (row t r) q

/-- The three per-pixel quantities. -/
abbrev f0 (c : Dev nD) : Fin 32 → Fin 1024 → Fin 1024 → EReal := Cert.Spec.tf (xt m c)
abbrev f1 (c : Dev nD) : Fin 32 → Fin 1024 → Fin 1024 → EReal := Cert.Spec.nllK (xo m c) (xt m c)
abbrev f2 (c : Dev nD) : Fin 32 → Fin 1024 → Fin 1024 → EReal :=
  fun b h w => Cert.Spec.tf (xt m c) b h w * Cert.Spec.nllK (xo m c) (xt m c) b h w

/-- What the three scratch accumulators hold after the body at position `n`. -/
abbrev acc0 (c : Dev nD) (n : ℕ) (h : n < cfg0.N) : S8x1x1.Idx → EReal := (outsAt0 (F := Ideal) m c n h).2.2.2.1
abbrev acc1 (c : Dev nD) (n : ℕ) (h : n < cfg0.N) : S8x1x1.Idx → EReal := (outsAt0 (F := Ideal) m c n h).2.2.2.2.1
abbrev acc2 (c : Dev nD) (n : ℕ) (h : n < cfg0.N) : S8x1x1.Idx → EReal := (outsAt0 (F := Ideal) m c n h).2.2.2.2.2

theorem pred_lt (t : Fin cfg0.N) : t.val - 1 < cfg0.N := Nat.lt_of_le_of_lt (Nat.sub_le _ _) t.isLt

/-! ## What each control case leaves, piece by piece (any float values)

Each case's run ends a buffer with a list of pieces; a covering list reads back as its canonical contents, and one
whole-buffer store leaves its payload. The payload's loads read whole buffers, except the two class planes of the logits. -/

section Pieces
variable {F : FTy → Type} [FloatOps F]
open Idealize.ShloMosaic.Tactic

theorem hz3 : (![0, 0, 0] : Fin 3 → Nat) = fun _ => 0 := funext fun a => by fin_cases a <;> rfl

/-- The logits block's two class planes, as the body loads them: the rectangles at class offset 0 and 1. -/
abbrev lo0 (x0 : Vec F S8x2x128x1024 .f32) : Vec F S8x1x128x1024 .f32 :=
  View.ld x0 (Rect.unit (s := S8x2x128x1024) ![0, 0, 0, 0] S8x1x128x1024.size inb_S8x2x128x1024_S8x1x128x1024_0_0_0_0)
abbrev lo1 (x0 : Vec F S8x2x128x1024 .f32) : Vec F S8x1x128x1024 .f32 :=
  View.ld x0 (Rect.unit (s := S8x2x128x1024) ![0, 1, 0, 0] S8x1x128x1024.size inb_S8x2x128x1024_S8x1x128x1024_0_1_0_0)

variable (c : Dev nD) (i : grid0.Coords) (arg2 : Memref sig .tc .vmem S8x2x128x1024 .f32) (harg2 : arg2.IsWhole)
  (arg3 : Memref sig .tc .vmem S8x128x1024 .i32) (harg3 : arg3.IsWhole)
  (arg4 : Memref sig .tc .vmem S8x1x1 .f32) (harg4 : arg4.IsWhole) (arg5 : Memref sig .tc .vmem S8x1x1 .f32) (harg5 : arg5.IsWhole)
  (arg6 : Memref sig .tc .vmem S8x1x1 .f32) (harg6 : arg6.IsWhole) (arg7 : Memref sig .tc .vmem S8x1x1 .f32) (harg7 : arg7.IsWhole)
  (arg8 : Memref sig .tc .vmem S8x1x1 .f32) (harg8 : arg8.IsWhole) (arg9 : Memref sig .tc .vmem S8x1x1 .f32) (harg9 : arg9.IsWhole)

/-- Case B (a middle band), accumulator 0: the one covering store's payload over what the accumulator held. -/
theorem sB0 (hc0 : ¬cond0_0 i) (hc1 : ¬cond0_1 i) (x0 : Vec F S8x2x128x1024 .f32) (x1 : Vec F S8x128x1024 .i32)
    (xs0 xs1 xs2 : Vec F S8x1x1 .f32) :
    sout0_B_0 c i arg2 harg2 arg3 harg3 arg4 harg4 arg5 harg5 arg6 harg6 arg7 harg7 arg8 harg8 arg9 harg9 hc0 hc1 x0 x1 xs0 xs1 xs2 = k0_pay1 (k0_pay10 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz3]
  simp only [lo0, lo1, View.readAt_eq_ld, harg2.read_unread, harg3.read_unread, harg7.read_unread,
    View.ld_unit_zero (S := S8x128x1024) hz3, View.ld_unit_zero (S := S8x1x1) hz3]

/-- Case B (a middle band), accumulator 1: the one covering store's payload over what the accumulator held. -/
theorem sB1 (hc0 : ¬cond0_0 i) (hc1 : ¬cond0_1 i) (x0 : Vec F S8x2x128x1024 .f32) (x1 : Vec F S8x128x1024 .i32)
    (xs0 xs1 xs2 : Vec F S8x1x1 .f32) :
    sout0_B_1 c i arg2 harg2 arg3 harg3 arg4 harg4 arg5 harg5 arg6 harg6 arg7 harg7 arg8 harg8 arg9 harg9 hc0 hc1 x0 x1 xs0 xs1 xs2 = k0_pay2 (k0_pay7 (lo0 x0) (lo1 x0) x1) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz3]
  simp only [lo0, lo1, View.readAt_eq_ld, harg2.read_unread, harg3.read_unread, harg8.read_unread,
    View.ld_unit_zero (S := S8x128x1024) hz3, View.ld_unit_zero (S := S8x1x1) hz3]

/-- Case B (a middle band), accumulator 2: the one covering store's payload over what the accumulator held. -/
theorem sB2 (hc0 : ¬cond0_0 i) (hc1 : ¬cond0_1 i) (x0 : Vec F S8x2x128x1024 .f32) (x1 : Vec F S8x128x1024 .i32)
    (xs0 xs1 xs2 : Vec F S8x1x1 .f32) :
    sout0_B_2 c i arg2 harg2 arg3 harg3 arg4 harg4 arg5 harg5 arg6 harg6 arg7 harg7 arg8 harg8 arg9 harg9 hc0 hc1 x0 x1 xs0 xs1 xs2 = k0_pay3 (k0_pay9 (lo0 x0) (lo1 x0) x1) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz3]
  simp only [lo0, lo1, View.readAt_eq_ld, harg2.read_unread, harg3.read_unread, harg9.read_unread,
    View.ld_unit_zero (S := S8x128x1024) hz3, View.ld_unit_zero (S := S8x1x1) hz3]

/-- Case C (a group's last band), accumulator 0: the one covering store's payload over what the accumulator held. -/
theorem sC0 (hc0 : ¬cond0_0 i) (hc1 : cond0_1 i) (x0 : Vec F S8x2x128x1024 .f32) (x1 : Vec F S8x128x1024 .i32)
    (xs0 xs1 xs2 : Vec F S8x1x1 .f32) :
    sout0_C_0 c i arg2 harg2 arg3 harg3 arg4 harg4 arg5 harg5 arg6 harg6 arg7 harg7 arg8 harg8 arg9 harg9 hc0 hc1 x0 x1 xs0 xs1 xs2 = k0_pay1 (k0_pay10 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [lo0, lo1, View.readAt_eq_ld, harg2.read_unread, harg3.read_unread, harg7.read_unread,
    View.ld_unit_zero (S := S8x128x1024) hz3, View.ld_unit_zero (S := S8x1x1) hz3]

/-- Case C (a group's last band), accumulator 1: the one covering store's payload over what the accumulator held. -/
theorem sC1 (hc0 : ¬cond0_0 i) (hc1 : cond0_1 i) (x0 : Vec F S8x2x128x1024 .f32) (x1 : Vec F S8x128x1024 .i32)
    (xs0 xs1 xs2 : Vec F S8x1x1 .f32) :
    sout0_C_1 c i arg2 harg2 arg3 harg3 arg4 harg4 arg5 harg5 arg6 harg6 arg7 harg7 arg8 harg8 arg9 harg9 hc0 hc1 x0 x1 xs0 xs1 xs2 = k0_pay2 (k0_pay7 (lo0 x0) (lo1 x0) x1) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [lo0, lo1, View.readAt_eq_ld, harg2.read_unread, harg3.read_unread, harg8.read_unread,
    View.ld_unit_zero (S := S8x128x1024) hz3, View.ld_unit_zero (S := S8x1x1) hz3]

/-- Case C (a group's last band), accumulator 2: the one covering store's payload over what the accumulator held. -/
theorem sC2 (hc0 : ¬cond0_0 i) (hc1 : cond0_1 i) (x0 : Vec F S8x2x128x1024 .f32) (x1 : Vec F S8x128x1024 .i32)
    (xs0 xs1 xs2 : Vec F S8x1x1 .f32) :
    sout0_C_2 c i arg2 harg2 arg3 harg3 arg4 harg4 arg5 harg5 arg6 harg6 arg7 harg7 arg8 harg8 arg9 harg9 hc0 hc1 x0 x1 xs0 xs1 xs2 = k0_pay3 (k0_pay9 (lo0 x0) (lo1 x0) x1) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [lo0, lo1, View.readAt_eq_ld, harg2.read_unread, harg3.read_unread, harg9.read_unread,
    View.ld_unit_zero (S := S8x128x1024) hz3, View.ld_unit_zero (S := S8x1x1) hz3]

/-- Case C, output 2: accumulator 0 read back after its store. -/
theorem oC2 (hc0 : ¬cond0_0 i) (hc1 : cond0_1 i) (x0 : Vec F S8x2x128x1024 .f32) (x1 : Vec F S8x128x1024 .i32)
    (xs0 xs1 xs2 : Vec F S8x1x1 .f32) :
    out0_C_2 c i arg2 harg2 arg3 harg3 arg4 harg4 arg5 harg5 arg6 harg6 arg7 harg7 arg8 harg8 arg9 harg9 hc0 hc1 x0 x1 xs0 xs1 xs2 = k0_pay1 (k0_pay10 x1 xs0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [lo0, lo1, View.readAt_eq_ld, harg2.read_unread, harg3.read_unread, harg7.read_unread, View.readCov_unit_zero (S := S8x1x1) _ hz3,
    View.ld_unit_zero (S := S8x128x1024) hz3, View.ld_unit_zero (S := S8x1x1) hz3]

/-- Case C, output 3: accumulator 1 read back after its store. -/
theorem oC3 (hc0 : ¬cond0_0 i) (hc1 : cond0_1 i) (x0 : Vec F S8x2x128x1024 .f32) (x1 : Vec F S8x128x1024 .i32)
    (xs0 xs1 xs2 : Vec F S8x1x1 .f32) :
    out0_C_3 c i arg2 harg2 arg3 harg3 arg4 harg4 arg5 harg5 arg6 harg6 arg7 harg7 arg8 harg8 arg9 harg9 hc0 hc1 x0 x1 xs0 xs1 xs2 = k0_pay2 (k0_pay7 (lo0 x0) (lo1 x0) x1) xs1 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [lo0, lo1, View.readAt_eq_ld, harg2.read_unread, harg3.read_unread, harg8.read_unread, View.readCov_unit_zero (S := S8x1x1) _ hz3,
    View.ld_unit_zero (S := S8x128x1024) hz3, View.ld_unit_zero (S := S8x1x1) hz3]

/-- Case C, output 4: accumulator 2 read back after its store. -/
theorem oC4 (hc0 : ¬cond0_0 i) (hc1 : cond0_1 i) (x0 : Vec F S8x2x128x1024 .f32) (x1 : Vec F S8x128x1024 .i32)
    (xs0 xs1 xs2 : Vec F S8x1x1 .f32) :
    out0_C_4 c i arg2 harg2 arg3 harg3 arg4 harg4 arg5 harg5 arg6 harg6 arg7 harg7 arg8 harg8 arg9 harg9 hc0 hc1 x0 x1 xs0 xs1 xs2 = k0_pay3 (k0_pay9 (lo0 x0) (lo1 x0) x1) xs2 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [lo0, lo1, View.readAt_eq_ld, harg2.read_unread, harg3.read_unread, harg9.read_unread, View.readCov_unit_zero (S := S8x1x1) _ hz3,
    View.ld_unit_zero (S := S8x128x1024) hz3, View.ld_unit_zero (S := S8x1x1) hz3]

/-- Case A (a group's first band), accumulator 0: the reset store, then the update over the zero block read back. -/
theorem sA0 (hc0 : cond0_0 i) (hc1 : ¬cond0_1 i) (x0 : Vec F S8x2x128x1024 .f32) (x1 : Vec F S8x128x1024 .i32) :
    sout0_A_0 c i arg2 harg2 arg3 harg3 arg4 harg4 arg5 harg5 arg6 harg6 arg7 harg7 arg8 harg8 arg9 harg9 hc0 hc1 x0 x1 = k0_pay1 (k0_pay10 x1 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S8x1x1) hz3]
  simp only [lo0, lo1, View.readAt_eq_ld, harg2.read_unread, harg3.read_unread, harg7.read_unread, View.readCov_unit_zero (S := S8x1x1) _ hz3,
    View.ld_unit_zero (S := S8x128x1024) hz3, View.ld_unit_zero (S := S8x1x1) hz3]

/-- Case A (a group's first band), accumulator 1: the reset store, then the update over the zero block read back. -/
theorem sA1 (hc0 : cond0_0 i) (hc1 : ¬cond0_1 i) (x0 : Vec F S8x2x128x1024 .f32) (x1 : Vec F S8x128x1024 .i32) :
    sout0_A_1 c i arg2 harg2 arg3 harg3 arg4 harg4 arg5 harg5 arg6 harg6 arg7 harg7 arg8 harg8 arg9 harg9 hc0 hc1 x0 x1 = k0_pay2 (k0_pay7 (lo0 x0) (lo1 x0) x1) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S8x1x1) hz3]
  simp only [lo0, lo1, View.readAt_eq_ld, harg2.read_unread, harg3.read_unread, harg8.read_unread, View.readCov_unit_zero (S := S8x1x1) _ hz3,
    View.ld_unit_zero (S := S8x128x1024) hz3, View.ld_unit_zero (S := S8x1x1) hz3]

/-- Case A (a group's first band), accumulator 2: the reset store, then the update over the zero block read back. -/
theorem sA2 (hc0 : cond0_0 i) (hc1 : ¬cond0_1 i) (x0 : Vec F S8x2x128x1024 .f32) (x1 : Vec F S8x128x1024 .i32) :
    sout0_A_2 c i arg2 harg2 arg3 harg3 arg4 harg4 arg5 harg5 arg6 harg6 arg7 harg7 arg8 harg8 arg9 harg9 hc0 hc1 x0 x1 = k0_pay3 (k0_pay9 (lo0 x0) (lo1 x0) x1) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S8x1x1) hz3]
  simp only [lo0, lo1, View.readAt_eq_ld, harg2.read_unread, harg3.read_unread, harg9.read_unread, View.readCov_unit_zero (S := S8x1x1) _ hz3,
    View.ld_unit_zero (S := S8x128x1024) hz3, View.ld_unit_zero (S := S8x1x1) hz3]

end Pieces

/-! ## The accumulator update read at a sample, at the ideal values -/

section Update
open Idealize.ShloMosaic.ValueIdx

/-- A sum over the 1024 columns: the reduction along the last axis of a band, at (sample, row). -/
theorem colSum_apply (v : FVec Ideal S8x128x1024 .f32) (hφ : FKind.Formats .f32)
    (hacc : (0x00000000#32 : BitVec 32) = FKind.add.neutral .f32 hφ) (p : Fin 8) (r : Fin 128) :
    multiReduction (F := Ideal) .add [2] S8x128 v 0x00000000#32 reduces_S8x128x1024_S8x128 hφ hacc (ix2 p r)
      = ∑ q : Fin 1024, v (ix3 p r q) :=
  (Ideal.multiReduction_add_single v _ reduces_S8x128x1024_S8x128 hφ hacc (ix2 p r)).trans
    (Finset.sum_congr rfl fun q _ => congrArg v (funext fun a =>
      match a with | ⟨0, _⟩ => Fin.ext rfl | ⟨1, _⟩ => Fin.ext rfl | ⟨2, _⟩ => Fin.ext rfl))

/-- A sum over the 128 rows: the reduction along the middle axis of the column sums kept as a unit column. -/
theorem rowSum_apply (w : FVec Ideal S8x128x1 .f32) (hφ : FKind.Formats .f32)
    (hacc : (0x00000000#32 : BitVec 32) = FKind.add.neutral .f32 hφ) (p : Fin 8) :
    multiReduction (F := Ideal) .add [1] S8x1 w 0x00000000#32 reduces_S8x128x1_S8x1 hφ hacc (ix2 p 0)
      = ∑ r : Fin 128, w (ix3 p r 0) :=
  (Ideal.multiReduction_add_single w _ reduces_S8x128x1_S8x1 hφ hacc (ix2 p 0)).trans
    (Finset.sum_congr rfl fun r _ => congrArg w (funext fun a =>
      match a with | ⟨0, _⟩ => Fin.ext rfl | ⟨1, _⟩ => Fin.ext rfl | ⟨2, _⟩ => Fin.ext rfl))

/-- The column sums viewed as a unit column read the same entry. -/
theorem unitCol_apply (u : FVec Ideal S8x128 .f32) (p : Fin 8) (r : Fin 128) :
    shapeCast S8x128x1 u shapeCasts_S8x128_S8x128x1 (ix3 p r 0) = u (ix2 p r) :=
  shapeCast_apply u shapeCasts_S8x128_S8x128x1 (ix3 p r 0) (ix2 p r) (by
    rw [Shape.rowMajor_val_two, Shape.rowMajor_val_three]
    show p.val * 128 + r.val = (p.val * 128 + r.val) * 1 + 0
    omega)

/-- The per-sample totals viewed as an [8,1,1] block read the same entry. -/
theorem unitBlk_apply (u : FVec Ideal S8x1 .f32) (p : Fin 8) :
    shapeCast S8x1x1 u shapeCasts_S8x1_S8x1x1 (ix3 p 0 0) = u (ix2 p 0) :=
  shapeCast_apply u shapeCasts_S8x1_S8x1x1 (ix3 p 0 0) (ix2 p 0) (by
    rw [Shape.rowMajor_val_two, Shape.rowMajor_val_three]
    show p.val * 1 + 0 = (p.val * 1 + 0) * 1 + 0
    omega)

/-- One accumulator update at sample `p`: the old value plus the band's sum of the per-pixel quantity `v`. -/
theorem upd_apply (v : FVec Ideal S8x128x1024 .f32) (old : Vec Ideal S8x1x1 .f32) (p : Fin 8) :
    k0_pay2 (F := Ideal) v old (ix3 p 0 0) = old (ix3 p 0 0) + ∑ r : Fin 128, ∑ q : Fin 1024, v (ix3 p r q) := by
  unfold k0_pay2
  refine (congrFun (shapeCast_self _ _) (ix3 p 0 0)).trans ?_
  refine congrArg (old (ix3 p 0 0) + ·) ?_
  refine (unitBlk_apply _ p).trans ?_
  refine (rowSum_apply _ (.inl rfl) rfl p).trans ?_
  refine Finset.sum_congr rfl fun r _ => ?_
  refine (unitCol_apply _ p r).trans ?_
  exact colSum_apply v (.inl rfl) rfl p r

/-- The count update and the product update are the same update of another per-pixel quantity. -/
theorem pay1_pay10_eq {F : FTy → Type} [FloatOps F] (x1 : Vec F S8x128x1024 .i32) (old : Vec F S8x1x1 .f32) :
    k0_pay1 (k0_pay10 x1 old) = k0_pay2 (k0_pay8 x1) old := rfl
theorem pay3_eq {F : FTy → Type} [FloatOps F] (v : FVec F S8x128x1024 .f32) (old : Vec F S8x1x1 .f32) :
    k0_pay3 v old = k0_pay2 v old := rfl

end Update

/-! ## The per-pixel quantities read at a pixel, at the ideal values -/

section Pixel
open Idealize.ShloMosaic.ValueIdx

/-- Class plane 0 of the logits block reads the block at class 0 … -/
theorem lo0_apply (x0 : Vec Ideal S8x2x128x1024 .f32) (p : Fin 8) (r : Fin 128) (q : Fin 1024) :
    lo0 x0 (ix4 p 0 r q) = x0 (ix4 p 0 r q) :=
  congrArg x0 (funext fun a => Fin.ext (match a with
    | ⟨0, _⟩ => by show 0 + 1 * p.val = p.val; omega
    | ⟨1, _⟩ => by show 0 + 1 * 0 = 0; omega
    | ⟨2, _⟩ => by show 0 + 1 * r.val = r.val; omega
    | ⟨3, _⟩ => by show 0 + 1 * q.val = q.val; omega))
/-- … and class plane 1 at class 1. -/
theorem lo1_apply (x0 : Vec Ideal S8x2x128x1024 .f32) (p : Fin 8) (r : Fin 128) (q : Fin 1024) :
    lo1 x0 (ix4 p 0 r q) = x0 (ix4 p 1 r q) :=
  congrArg x0 (funext fun a => Fin.ext (match a with
    | ⟨0, _⟩ => by show 0 + 1 * p.val = p.val; omega
    | ⟨1, _⟩ => by show 1 + 1 * 0 = 1; omega
    | ⟨2, _⟩ => by show 0 + 1 * r.val = r.val; omega
    | ⟨3, _⟩ => by show 0 + 1 * q.val = q.val; omega))

/-- A class plane viewed without its unit class axis reads the same entry. -/
theorem plane_apply (v : Vec Ideal S8x1x128x1024 .f32) (p : Fin 8) (r : Fin 128) (q : Fin 1024) :
    shapeCast S8x128x1024 v shapeCasts_S8x1x128x1024_S8x128x1024 (ix3 p r q) = v (ix4 p 0 r q) :=
  shapeCast_apply v shapeCasts_S8x1x128x1024_S8x128x1024 (ix3 p r q) (ix4 p 0 r q) (by
    rw [Shape.rowMajor_val_four, Shape.rowMajor_val_three]
    show ((p.val * 1 + 0) * 128 + r.val) * 1024 + q.val = (p.val * 128 + r.val) * 1024 + q.val
    omega)

/-- A select on "the two words are equal" is the `if` on their equality. -/
theorem select_cmpi_eq {α : Type} (x y : BitVec 32) (a b : α) :
    Scalar.select (IntOp.cmpi .eq x y) a b = if x = y then a else b := by
  show (if BitVec.ofBool (x == y) = 1#1 then a else b) = _
  by_cases h : x = y
  · subst h; simp
  · have hb : (x == y) = false := by simpa using h
    rw [if_neg h, hb]
    exact if_neg (by decide)

/-- The softplus of the margin signed by the label, from a pixel's two logits and its label word. -/
def pix (a b : EReal) (l : BitVec 32) : EReal :=
  let d := b - a
  let x := if l = 0#32 then d else Cert.Spec.zeroW - d
  max x Cert.Spec.zeroW + Ideal.log1p (Ideal.exp (Cert.Spec.zeroW - max x (-x)))

/-- The loss payload at a pixel. -/
theorem loss_apply (v3 v5 : Vec Ideal S8x1x128x1024 .f32) (v7 : Vec Ideal S8x128x1024 .i32)
    (p : Fin 8) (r : Fin 128) (q : Fin 1024) :
    k0_pay7 (F := Ideal) v3 v5 v7 (ix3 p r q) = pix (v3 (ix4 p 0 r q)) (v5 (ix4 p 0 r q)) (v7 (ix3 p r q)) := by
  have e3 := plane_apply v3 p r q
  have e5 := plane_apply v5 p r q
  unfold k0_pay7 pix
  dsimp only [addf, maximumf, subf, absf, exp, log1p, select, cmpi, broadcast]
  rw [e3, e5, select_cmpi_eq]
  rfl

/-- The label payload at a pixel: the label word read as a signed integer. -/
theorem lab_apply (v7 : Vec Ideal S8x128x1024 .i32) (p : Fin 8) (r : Fin 128) (q : Fin 1024) :
    k0_pay8 (F := Ideal) v7 (ix3 p r q) = (((v7 (ix3 p r q)).toInt : ℝ) : EReal) := rfl

/-- The product payload at a pixel. -/
theorem prod_apply (v3 v5 : Vec Ideal S8x1x128x1024 .f32) (v7 : Vec Ideal S8x128x1024 .i32)
    (p : Fin 8) (r : Fin 128) (q : Fin 1024) :
    k0_pay9 (F := Ideal) v3 v5 v7 (ix3 p r q)
      = (((v7 (ix3 p r q)).toInt : ℝ) : EReal) * pix (v3 (ix4 p 0 r q)) (v5 (ix4 p 0 r q)) (v7 (ix3 p r q)) := by
  unfold k0_pay9
  show k0_pay8 (F := Ideal) v7 (ix3 p r q) * k0_pay7 (F := Ideal) v3 v5 v7 (ix3 p r q) = _
  rw [loss_apply, lab_apply]

/-- The zero block the reset stores is zero everywhere. -/
theorem pay4_apply (i : S8x1x1.Idx) : k0_pay4 (F := Ideal) i = 0 := by
  unfold k0_pay4
  refine (congrFun (shapeCast_self _ _) i).trans ?_
  exact Ideal.ofBits_zero_f32
theorem pay5_eq : k0_pay5 (F := Ideal) = k0_pay4 (F := Ideal) := rfl
theorem pay6_eq : k0_pay6 (F := Ideal) = k0_pay4 (F := Ideal) := rfl

end Pixel

/-! ## The band's blocks are the band of the arrays -/

section Blocks
open Idealize.ShloMosaic.ValueIdx

/-- Point `t`'s logits block and labels block, at their literal types. -/
abbrev lblk (c : Dev nD) (t : Fin cfg0.N) : Vec Ideal S8x2x128x1024 .f32 := iblk m c 0 t
abbrev tblk (c : Dev nD) (t : Fin cfg0.N) : Vec Ideal S8x128x1024 .i32 := iblk m c 1 t

/-- Where the two input windows sit at point `t`: group `t / 8` of the samples, band `t % 8` of the rows. -/
theorem index_logits : ∀ t : Fin cfg0.N, win0_0.index t 0 = t.val / 8 ∧ win0_0.index t 1 = 0
    ∧ win0_0.index t 2 = t.val % 8 ∧ win0_0.index t 3 = 0 :=
  (by decide +kernel : ∀ t : Fin grid0.N, win0_0.index t 0 = t.val / 8 ∧ win0_0.index t 1 = 0
    ∧ win0_0.index t 2 = t.val % 8 ∧ win0_0.index t 3 = 0)
theorem index_labels : ∀ t : Fin cfg0.N, win0_1.index t 0 = t.val / 8 ∧ win0_1.index t 1 = t.val % 8
    ∧ win0_1.index t 2 = 0 :=
  (by decide +kernel : ∀ t : Fin grid0.N, win0_1.index t 0 = t.val / 8 ∧ win0_1.index t 1 = t.val % 8
    ∧ win0_1.index t 2 = 0)

/-- The logits block at (position, class, row, column) is the logits at (sample, class, image row, column). -/
theorem lblk_apply (c : Dev nD) (t : Fin cfg0.N) (p : Fin 8) (k : Fin 2) (r : Fin 128) (q : Fin 1024) :
    lblk m c t (ix4 p k r q) = xo m c (ix4 (smp t p) k (row t r) q) := by
  obtain ⟨i0, i1, i2, i3⟩ := index_logits t
  show iblk m c 0 t (ix4 p k r q) = _
  unfold iblk
  rw [View.read_apply]
  show V m c main_arg0 _ = m (c.tc.loc main_arg0) _
  unfold V
  congr 1
  funext a
  apply Fin.ext
  match a with
  | ⟨0, _⟩ => show win0_0.index t 0 * 8 + 1 * p.val = 8 * (t.val / 8) + p.val; rw [i0]; omega
  | ⟨1, _⟩ => show win0_0.index t 1 * 2 + 1 * k.val = k.val; rw [i1]; omega
  | ⟨2, _⟩ => show win0_0.index t 2 * 128 + 1 * r.val = 128 * (t.val % 8) + r.val; rw [i2]; omega
  | ⟨3, _⟩ => show win0_0.index t 3 * 1024 + 1 * q.val = q.val; rw [i3]; omega

/-- The labels block at (position, row, column) is the labels at (sample, image row, column). -/
theorem tblk_apply (c : Dev nD) (t : Fin cfg0.N) (p : Fin 8) (r : Fin 128) (q : Fin 1024) :
    tblk m c t (ix3 p r q) = xt m c (ix3 (smp t p) (row t r) q) := by
  obtain ⟨i0, i1, i2⟩ := index_labels t
  show iblk m c 1 t (ix3 p r q) = _
  unfold iblk
  rw [View.read_apply]
  show V m c main_arg1 _ = m (c.tc.loc main_arg1) _
  unfold V
  congr 1
  funext a
  apply Fin.ext
  match a with
  | ⟨0, _⟩ => show win0_1.index t 0 * 8 + 1 * p.val = 8 * (t.val / 8) + p.val; rw [i0]; omega
  | ⟨1, _⟩ => show win0_1.index t 1 * 128 + 1 * r.val = 128 * (t.val % 8) + r.val; rw [i1]; omega
  | ⟨2, _⟩ => show win0_1.index t 2 * 1024 + 1 * q.val = q.val; rw [i2]; omega

end Blocks

/-! ## One point's three updates: the old value plus the band's sum -/

section Bands
open Idealize.ShloMosaic.ValueIdx

/-- An accumulator update as a function of the sample position. -/
theorem upd_eq (v : FVec Ideal S8x128x1024 .f32) (old : Vec Ideal S8x1x1 .f32) :
    k0_pay2 (F := Ideal) v old
      = fun i => old i + ∑ r : Fin 128, ∑ q : Fin 1024, v (ix3 (⟨(i 0).val, (i 0).isLt⟩ : Fin 8) r q) := by
  funext i
  have h1 : (i 1).val < 1 := (i 1).isLt
  have h2 : (i 2).val < 1 := (i 2).isLt
  obtain ⟨p, rfl⟩ : ∃ p : Fin 8, i = ix3 p (0 : Fin 1) (0 : Fin 1) :=
    ⟨i 0, funext fun a => match a with
      | ⟨0, _⟩ => rfl
      | ⟨1, _⟩ => Fin.ext (show (i 1).val = 0 by omega)
      | ⟨2, _⟩ => Fin.ext (show (i 2).val = 0 by omega)⟩
  exact upd_apply v old p

/-- The label count. -/
theorem new0_eq (c : Dev nD) (t : Fin cfg0.N) (old : Vec Ideal S8x1x1 .f32) :
    k0_pay1 (k0_pay10 (tblk m c t) old) = fun i => old i + band (f0 m c) t i := by
  refine (pay1_pay10_eq _ _).trans ((upd_eq _ _).trans ?_)
  funext i
  refine congrArg (old i + ·) ?_
  unfold band
  refine Finset.sum_congr rfl fun r _ => Finset.sum_congr rfl fun q _ => ?_
  rw [lab_apply, tblk_apply]
  rfl

/-- The loss sum. -/
theorem new1_eq (c : Dev nD) (t : Fin cfg0.N) (old : Vec Ideal S8x1x1 .f32) :
    k0_pay2 (k0_pay7 (lo0 (lblk m c t)) (lo1 (lblk m c t)) (tblk m c t)) old
      = fun i => old i + band (f1 m c) t i := by
  refine (upd_eq _ _).trans ?_
  funext i
  refine congrArg (old i + ·) ?_
  unfold band
  refine Finset.sum_congr rfl fun r _ => Finset.sum_congr rfl fun q _ => ?_
  rw [loss_apply, lo0_apply, lo1_apply, lblk_apply, lblk_apply, tblk_apply]
  rfl

/-- The label-times-loss sum. -/
theorem new2_eq (c : Dev nD) (t : Fin cfg0.N) (old : Vec Ideal S8x1x1 .f32) :
    k0_pay3 (k0_pay9 (lo0 (lblk m c t)) (lo1 (lblk m c t)) (tblk m c t)) old
      = fun i => old i + band (f2 m c) t i := by
  refine (pay3_eq _ _).trans ((upd_eq _ _).trans ?_)
  funext i
  refine congrArg (old i + ·) ?_
  unfold band
  refine Finset.sum_congr rfl fun r _ => Finset.sum_congr rfl fun q _ => ?_
  rw [prod_apply, lo0_apply, lo1_apply, lblk_apply, lblk_apply, tblk_apply]
  rfl

end Bands

/-! ## A group's first band: the accumulators start from zero -/

theorem acc0_first (c : Dev nD) (t : Fin cfg0.N) (h0 : t.val % 8 = 0) :
    acc0 m c t.val t.isLt = band (f0 m c) t := by
  have h1 : ¬t.val % 8 = 7 := by omega
  show (outsAt0 (F := Ideal) m c t.val t.isLt).2.2.2.1 = _
  rw [outsAt0_A m c t h0 h1]
  dsimp only
  refine (sA0 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      ((hcond0_0 t).mpr h0) (fun h => h1 ((hcond0_1 t).mp h)) (iblk m c 0 t) (iblk m c 1 t)).trans ?_
  refine (new0_eq m c t _).trans ?_
  funext i
  rw [pay4_apply, zero_add]
theorem acc1_first (c : Dev nD) (t : Fin cfg0.N) (h0 : t.val % 8 = 0) :
    acc1 m c t.val t.isLt = band (f1 m c) t := by
  have h1 : ¬t.val % 8 = 7 := by omega
  show (outsAt0 (F := Ideal) m c t.val t.isLt).2.2.2.2.1 = _
  rw [outsAt0_A m c t h0 h1]
  dsimp only
  refine (sA1 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      ((hcond0_0 t).mpr h0) (fun h => h1 ((hcond0_1 t).mp h)) (iblk m c 0 t) (iblk m c 1 t)).trans ?_
  refine (new1_eq m c t _).trans ?_
  funext i
  rw [pay5_eq, pay4_apply, zero_add]
theorem acc2_first (c : Dev nD) (t : Fin cfg0.N) (h0 : t.val % 8 = 0) :
    acc2 m c t.val t.isLt = band (f2 m c) t := by
  have h1 : ¬t.val % 8 = 7 := by omega
  show (outsAt0 (F := Ideal) m c t.val t.isLt).2.2.2.2.2 = _
  rw [outsAt0_A m c t h0 h1]
  dsimp only
  refine (sA2 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      ((hcond0_0 t).mpr h0) (fun h => h1 ((hcond0_1 t).mp h)) (iblk m c 0 t) (iblk m c 1 t)).trans ?_
  refine (new2_eq m c t _).trans ?_
  funext i
  rw [pay6_eq, pay4_apply, zero_add]

/-! ## A later band: the accumulators gain the band's sum over what the point before left -/

theorem acc0_next (c : Dev nD) (t : Fin cfg0.N) (h0 : ¬t.val % 8 = 0) :
    acc0 m c t.val t.isLt = fun i => acc0 m c (t.val - 1) (pred_lt t) i + band (f0 m c) t i := by
  show (outsAt0 (F := Ideal) m c t.val t.isLt).2.2.2.1 = _
  by_cases h1 : t.val % 8 = 7
  · rw [outsAt0_C m c t h0 h1]
    dsimp only
    refine (sC0 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t)
      (acc0 m c (t.val - 1) (pred_lt t)) (acc1 m c (t.val - 1) (pred_lt t)) (acc2 m c (t.val - 1) (pred_lt t))).trans ?_
    exact new0_eq m c t _
  · rw [outsAt0_B m c t h0 h1]
    dsimp only
    refine (sB0 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) (fun h => h1 ((hcond0_1 t).mp h)) (iblk m c 0 t) (iblk m c 1 t)
      (acc0 m c (t.val - 1) (pred_lt t)) (acc1 m c (t.val - 1) (pred_lt t)) (acc2 m c (t.val - 1) (pred_lt t))).trans ?_
    exact new0_eq m c t _
theorem acc1_next (c : Dev nD) (t : Fin cfg0.N) (h0 : ¬t.val % 8 = 0) :
    acc1 m c t.val t.isLt = fun i => acc1 m c (t.val - 1) (pred_lt t) i + band (f1 m c) t i := by
  show (outsAt0 (F := Ideal) m c t.val t.isLt).2.2.2.2.1 = _
  by_cases h1 : t.val % 8 = 7
  · rw [outsAt0_C m c t h0 h1]
    dsimp only
    refine (sC1 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t)
      (acc0 m c (t.val - 1) (pred_lt t)) (acc1 m c (t.val - 1) (pred_lt t)) (acc2 m c (t.val - 1) (pred_lt t))).trans ?_
    exact new1_eq m c t _
  · rw [outsAt0_B m c t h0 h1]
    dsimp only
    refine (sB1 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) (fun h => h1 ((hcond0_1 t).mp h)) (iblk m c 0 t) (iblk m c 1 t)
      (acc0 m c (t.val - 1) (pred_lt t)) (acc1 m c (t.val - 1) (pred_lt t)) (acc2 m c (t.val - 1) (pred_lt t))).trans ?_
    exact new1_eq m c t _
theorem acc2_next (c : Dev nD) (t : Fin cfg0.N) (h0 : ¬t.val % 8 = 0) :
    acc2 m c t.val t.isLt = fun i => acc2 m c (t.val - 1) (pred_lt t) i + band (f2 m c) t i := by
  show (outsAt0 (F := Ideal) m c t.val t.isLt).2.2.2.2.2 = _
  by_cases h1 : t.val % 8 = 7
  · rw [outsAt0_C m c t h0 h1]
    dsimp only
    refine (sC2 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t)
      (acc0 m c (t.val - 1) (pred_lt t)) (acc1 m c (t.val - 1) (pred_lt t)) (acc2 m c (t.val - 1) (pred_lt t))).trans ?_
    exact new2_eq m c t _
  · rw [outsAt0_B m c t h0 h1]
    dsimp only
    refine (sB2 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) (fun h => h1 ((hcond0_1 t).mp h)) (iblk m c 0 t) (iblk m c 1 t)
      (acc0 m c (t.val - 1) (pred_lt t)) (acc1 m c (t.val - 1) (pred_lt t)) (acc2 m c (t.val - 1) (pred_lt t))).trans ?_
    exact new2_eq m c t _

/-! ## A group's last band: the output blocks are the accumulators -/

theorem out2_last (c : Dev nD) (t : Fin cfg0.N) (h1 : t.val % 8 = 7) :
    ((outsAt0 (F := Ideal) m c t.val t.isLt).1 : S8x1x1.Idx → EReal) = acc0 m c t.val t.isLt := by
  have h0 : ¬t.val % 8 = 0 := by omega
  show (outsAt0 (F := Ideal) m c t.val t.isLt).1 = (outsAt0 (F := Ideal) m c t.val t.isLt).2.2.2.1
  rw [outsAt0_C m c t h0 h1]
  dsimp only
  exact (oC2 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t)
      (acc0 m c (t.val - 1) (pred_lt t)) (acc1 m c (t.val - 1) (pred_lt t)) (acc2 m c (t.val - 1) (pred_lt t))).trans
    (sC0 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t)
      (acc0 m c (t.val - 1) (pred_lt t)) (acc1 m c (t.val - 1) (pred_lt t)) (acc2 m c (t.val - 1) (pred_lt t))).symm
theorem out3_last (c : Dev nD) (t : Fin cfg0.N) (h1 : t.val % 8 = 7) :
    ((outsAt0 (F := Ideal) m c t.val t.isLt).2.1 : S8x1x1.Idx → EReal) = acc1 m c t.val t.isLt := by
  have h0 : ¬t.val % 8 = 0 := by omega
  show (outsAt0 (F := Ideal) m c t.val t.isLt).2.1 = (outsAt0 (F := Ideal) m c t.val t.isLt).2.2.2.2.1
  rw [outsAt0_C m c t h0 h1]
  dsimp only
  exact (oC3 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t)
      (acc0 m c (t.val - 1) (pred_lt t)) (acc1 m c (t.val - 1) (pred_lt t)) (acc2 m c (t.val - 1) (pred_lt t))).trans
    (sC1 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t)
      (acc0 m c (t.val - 1) (pred_lt t)) (acc1 m c (t.val - 1) (pred_lt t)) (acc2 m c (t.val - 1) (pred_lt t))).symm
theorem out4_last (c : Dev nD) (t : Fin cfg0.N) (h1 : t.val % 8 = 7) :
    ((outsAt0 (F := Ideal) m c t.val t.isLt).2.2.1 : S8x1x1.Idx → EReal) = acc2 m c t.val t.isLt := by
  have h0 : ¬t.val % 8 = 0 := by omega
  show (outsAt0 (F := Ideal) m c t.val t.isLt).2.2.1 = (outsAt0 (F := Ideal) m c t.val t.isLt).2.2.2.2.2
  rw [outsAt0_C m c t h0 h1]
  dsimp only
  exact (oC4 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t)
      (acc0 m c (t.val - 1) (pred_lt t)) (acc1 m c (t.val - 1) (pred_lt t)) (acc2 m c (t.val - 1) (pred_lt t))).trans
    (sC2 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t)
      (acc0 m c (t.val - 1) (pred_lt t)) (acc1 m c (t.val - 1) (pred_lt t)) (acc2 m c (t.val - 1) (pred_lt t))).symm

end Cert.KernelIdeal.KVal

end
-- ==== Proof.KVal.lean ====
/-
  What the kernel's region leaves in its three result arrays, at the ideal instance: for every sample `b` the label
  sum, the loss sum and the label-times-loss sum over the sample's 1024 × 1024 pixels (Spec.lean's `cnt1`, `sAll`,
  `sOne`). The grid walks 4 groups of 8 samples, and for each group 8 bands of 128 rows; three scratch accumulators
  are zeroed at a group's first band, gain at each band the band's sum over its 128 rows and 1024 columns (a sum
  along the columns, then along the rows), and are copied to the results at the group's last band.
-/
import proofs.«425937_j45887430590783_3_alg».proof.Proof.PointVal
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

noncomputable section

namespace Cert.KernelIdeal.KVal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- A per-sample quantity laid out as a [32, 1, 1] array. -/
def col (f : Fin 32 → EReal) : S32x1x1.Idx → EReal := fun i => f ⟨(i 0).val, (i 0).isLt⟩

/-! ## The fold: an accumulator after band `hh` of a group is the sum of the group's bands `0 … hh` -/

/-- Sample `8·g + p` and image row `128·hh + r`, as numbers reduced into their ranges (so that no bound proof
    depends on `g` or `hh`): at a grid point these are `smp` and `row`. -/
def smpN (g p : ℕ) : Fin 32 := ⟨(8 * g + p) % 32, Nat.mod_lt _ (by norm_num)⟩
def rowN (hh r : ℕ) : Fin 1024 := ⟨(128 * hh + r) % 1024, Nat.mod_lt _ (by norm_num)⟩

theorem smp_eq (t : Fin cfg0.N) (p : Fin 8) : smp t p = smpN (t.val / 8) p.val := by
  have h : t.val < 32 := lt_of_lt_of_eq t.isLt (show cfg0.N = 32 from N_0)
  have hp := p.isLt
  apply Fin.ext
  show 8 * (t.val / 8) + p.val = (8 * (t.val / 8) + p.val) % 32
  omega

theorem row_eq (t : Fin cfg0.N) (r : Fin 128) : row t r = rowN (t.val % 8) r.val := by
  have hr := r.isLt
  apply Fin.ext
  show 128 * (t.val % 8) + r.val = (128 * (t.val % 8) + r.val) % 1024
  omega

/-- Band `hh` of group `g`: the sum of a per-pixel quantity over the band's rows and all columns, for the sample at
    position `p` of the group. -/
def bsum (f : Fin 32 → Fin 1024 → Fin 1024 → EReal) (g hh p : ℕ) : EReal :=
  ∑ r : Fin 128, ∑ q : Fin 1024, f (smpN g p) (rowN hh r.val) q

theorem band_eq (f : Fin 32 → Fin 1024 → Fin 1024 → EReal) (t : Fin cfg0.N) (i : S8x1x1.Idx) :
    band f t i = bsum f (t.val / 8) (t.val % 8) (i 0).val := by
  unfold band bsum
  refine Finset.sum_congr rfl fun r _ => Finset.sum_congr rfl fun q _ => ?_
  rw [smp_eq, row_eq]

/-- A point-indexed quantity that is the band's sum at a group's first band and gains the band's sum at every later
    one is, after band `n % 8` of group `n / 8`, the sum of the group's bands up to that one. By induction on the
    point. -/
theorem fold (f : Fin 32 → Fin 1024 → Fin 1024 → EReal) (a : (n : ℕ) → n < cfg0.N → S8x1x1.Idx → EReal)
    (hfirst : ∀ t : Fin cfg0.N, t.val % 8 = 0 → a t.val t.isLt = band f t)
    (hnext : ∀ t : Fin cfg0.N, ¬t.val % 8 = 0 →
      a t.val t.isLt = fun i => a (t.val - 1) (pred_lt t) i + band f t i) :
    ∀ (n : ℕ) (h : n < cfg0.N) (i : S8x1x1.Idx),
      a n h i = ∑ s ∈ Finset.range (n % 8 + 1), bsum f (n / 8) s (i 0).val
  | 0, h, i => by
    have e : a 0 h i = bsum f (0 / 8) (0 % 8) (i 0).val :=
      (congrFun (hfirst ⟨0, h⟩ rfl) i).trans (band_eq f ⟨0, h⟩ i)
    rw [e, Finset.sum_range_one]
  | n + 1, h, i => by
    by_cases h0 : (n + 1) % 8 = 0
    · have e : a (n + 1) h i = bsum f ((n + 1) / 8) ((n + 1) % 8) (i 0).val :=
        (congrFun (hfirst ⟨n + 1, h⟩ h0) i).trans (band_eq f ⟨n + 1, h⟩ i)
      rw [e, h0, Finset.sum_range_one]
    · have e : a (n + 1) h i
          = a n (Nat.lt_of_succ_lt h) i + bsum f ((n + 1) / 8) ((n + 1) % 8) (i 0).val :=
        (congrFun (hnext ⟨n + 1, h⟩ h0) i).trans (congrArg _ (band_eq f ⟨n + 1, h⟩ i))
      have d : (n + 1) / 8 = n / 8 := by omega
      have r : (n + 1) % 8 = n % 8 + 1 := by omega
      rw [e, fold f a hfirst hnext n (Nat.lt_of_succ_lt h) i, d, r, Finset.sum_range_succ _ (n % 8 + 1)]

/-! ## The re-indexing: 8 bands of 128 rows are the 1024 rows -/

theorem sum_bands (G : Fin 1024 → EReal) :
    ∑ s ∈ Finset.range 8, ∑ r : Fin 128, G (rowN s r.val) = ∑ h : Fin 1024, G h := by
  rw [Finset.sum_range (fun s => ∑ r : Fin 128, G (rowN s r.val))]
  have e : ∑ h : Fin 1024, G h = ∑ x : Fin 8 × Fin 128, G (finProdFinEquiv x) :=
    (Equiv.sum_comp (finProdFinEquiv (m := 8) (n := 128)) G).symm
  rw [e, Fintype.sum_prod_type]
  refine Finset.sum_congr rfl fun a _ => Finset.sum_congr rfl fun b _ => congrArg G ?_
  have ha := a.isLt
  have hb := b.isLt
  apply Fin.ext
  show (128 * a.val + b.val) % 1024 = b.val + 128 * a.val
  omega

/-- At a group's last band the quantity is the sum over all 1024 rows and 1024 columns, for each sample of the
    group. -/
theorem fold_last (f : Fin 32 → Fin 1024 → Fin 1024 → EReal) (a : (n : ℕ) → n < cfg0.N → S8x1x1.Idx → EReal)
    (hfirst : ∀ t : Fin cfg0.N, t.val % 8 = 0 → a t.val t.isLt = band f t)
    (hnext : ∀ t : Fin cfg0.N, ¬t.val % 8 = 0 →
      a t.val t.isLt = fun i => a (t.val - 1) (pred_lt t) i + band f t i)
    (t : Fin cfg0.N) (h7 : t.val % 8 = 7) (i : S8x1x1.Idx) :
    a t.val t.isLt i = ∑ h : Fin 1024, ∑ w : Fin 1024, f (smpN (t.val / 8) (i 0).val) h w := by
  rw [fold f a hfirst hnext t.val t.isLt i, h7]
  exact sum_bands fun h => ∑ w : Fin 1024, f (smpN (t.val / 8) (i 0).val) h w

/-! ## The arrays: the block a group's last band writes back is the group's rows of the per-sample sums -/

/-- The result windows' block index at point `t` is the group `t / 8` on the sample axis and 0 on the two unit
    axes, decided once over the grid. -/
theorem idx_facts : ∀ t : Fin cfg0.N,
    (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0) :=
  (by decide +kernel : ∀ t : Fin grid0.N, _)

/-- The point that writes back row `b` of a result array: the last band of group `b / 8`. -/
theorem last_band (b : ℕ) (hb : b < 32) : ∃ t : Fin cfg0.N, t.val = 8 * (b / 8) + 7 :=
  ⟨⟨8 * (b / 8) + 7, lt_of_lt_of_eq (by omega) (show cfg0.N = 32 from N_0).symm⟩, rfl⟩

/-! ## The first result array: the label sums -/

theorem cut2_eq (g : Fin 32 → EReal) (t : Fin cfg0.N) (a : S8x1x1.Idx → EReal)
    (h : ∀ i : S8x1x1.Idx, a i = g (smpN (t.val / 8) (i 0).val)) :
    (cfg0.win 2).cut (grid0.coords t) a = ((cfg0.win 2).blk t).view.read (Elt Ideal) (col g) := by
  funext y
  have ht : t.val < 32 := lt_of_lt_of_eq t.isLt (show cfg0.N = 32 from N_0)
  have hy : (y 0).val < 8 := (y 0).isLt
  obtain ⟨⟨e0, e1, e2⟩, -, -⟩ := idx_facts t
  show a (win0_2.xinj (grid0.coords t) y) = col g (((cfg0.win 2).blk t).view.emb y)
  rw [h]
  unfold col
  congr 1
  apply Fin.ext
  show (8 * (t.val / 8) + (y 0).val) % 32 = win0_2.index t (0 : Fin 3) * 8 + 1 * (y 0).val
  rw [e0]; omega

theorem flushed2_eq (c : Dev nD) (t : Fin cfg0.N) (hf : (cfg0.win 2).flush t = true) :
    (dats (F := Ideal) m 0 c).flushed 2 t
      = ((cfg0.win 2).blk t).view.read (Elt Ideal) (col (Cert.Spec.cnt1 (xt m c))) := by
  have h7 : t.val % 8 = 7 := (flush0_2 t).mp hf
  show (cfg0.win 2).cut (grid0.coords t) ((dats (F := Ideal) m 0 c).after 2 t) = _
  rw [after0_2, out2_last m c t h7]
  exact cut2_eq (Cert.Spec.cnt1 (xt m c)) t _ fun i =>
    fold_last (f0 m c) (acc0 m c) (acc0_first m c) (acc0_next m c) t h7 i

theorem cover2 (i : S32x1x1.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 1 := (i 2).isLt
  obtain ⟨t, ht⟩ := last_band (i 0).val hi0
  obtain ⟨⟨e0, e1, e2⟩, -, -⟩ := idx_facts t
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t (0 : Fin 3) * 8 ≤ (i 0).val ∧ (i 0).val < win0_2.index t (0 : Fin 3) * 8 + 8
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1 ≤ (i 2).val ∧ (i 2).val < win0_2.index t (2 : Fin 3) * 1 + 1
    omega

/-! ## The second result array: the loss sums -/

theorem cut3_eq (g : Fin 32 → EReal) (t : Fin cfg0.N) (a : S8x1x1.Idx → EReal)
    (h : ∀ i : S8x1x1.Idx, a i = g (smpN (t.val / 8) (i 0).val)) :
    (cfg0.win 3).cut (grid0.coords t) a = ((cfg0.win 3).blk t).view.read (Elt Ideal) (col g) := by
  funext y
  have ht : t.val < 32 := lt_of_lt_of_eq t.isLt (show cfg0.N = 32 from N_0)
  have hy : (y 0).val < 8 := (y 0).isLt
  obtain ⟨-, ⟨e0, e1, e2⟩, -⟩ := idx_facts t
  show a (win0_3.xinj (grid0.coords t) y) = col g (((cfg0.win 3).blk t).view.emb y)
  rw [h]
  unfold col
  congr 1
  apply Fin.ext
  show (8 * (t.val / 8) + (y 0).val) % 32 = win0_3.index t (0 : Fin 3) * 8 + 1 * (y 0).val
  rw [e0]; omega

theorem flushed3_eq (c : Dev nD) (t : Fin cfg0.N) (hf : (cfg0.win 3).flush t = true) :
    (dats (F := Ideal) m 0 c).flushed 3 t
      = ((cfg0.win 3).blk t).view.read (Elt Ideal) (col (Cert.Spec.sAll (xo m c) (xt m c))) := by
  have h7 : t.val % 8 = 7 := (flush0_3 t).mp hf
  show (cfg0.win 3).cut (grid0.coords t) ((dats (F := Ideal) m 0 c).after 3 t) = _
  rw [after0_3, out3_last m c t h7]
  exact cut3_eq (Cert.Spec.sAll (xo m c) (xt m c)) t _ fun i =>
    fold_last (f1 m c) (acc1 m c) (acc1_first m c) (acc1_next m c) t h7 i

theorem cover3 (i : S32x1x1.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 1 := (i 2).isLt
  obtain ⟨t, ht⟩ := last_band (i 0).val hi0
  obtain ⟨-, ⟨e0, e1, e2⟩, -⟩ := idx_facts t
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t (0 : Fin 3) * 8 ≤ (i 0).val ∧ (i 0).val < win0_3.index t (0 : Fin 3) * 8 + 8
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 1 ≤ (i 2).val ∧ (i 2).val < win0_3.index t (2 : Fin 3) * 1 + 1
    omega

/-! ## The third result array: the label-times-loss sums -/

theorem cut4_eq (g : Fin 32 → EReal) (t : Fin cfg0.N) (a : S8x1x1.Idx → EReal)
    (h : ∀ i : S8x1x1.Idx, a i = g (smpN (t.val / 8) (i 0).val)) :
    (cfg0.win 4).cut (grid0.coords t) a = ((cfg0.win 4).blk t).view.read (Elt Ideal) (col g) := by
  funext y
  have ht : t.val < 32 := lt_of_lt_of_eq t.isLt (show cfg0.N = 32 from N_0)
  have hy : (y 0).val < 8 := (y 0).isLt
  obtain ⟨-, -, e0, e1, e2⟩ := idx_facts t
  show a (win0_4.xinj (grid0.coords t) y) = col g (((cfg0.win 4).blk t).view.emb y)
  rw [h]
  unfold col
  congr 1
  apply Fin.ext
  show (8 * (t.val / 8) + (y 0).val) % 32 = win0_4.index t (0 : Fin 3) * 8 + 1 * (y 0).val
  rw [e0]; omega

theorem flushed4_eq (c : Dev nD) (t : Fin cfg0.N) (hf : (cfg0.win 4).flush t = true) :
    (dats (F := Ideal) m 0 c).flushed 4 t
      = ((cfg0.win 4).blk t).view.read (Elt Ideal) (col (Cert.Spec.sOne (xo m c) (xt m c))) := by
  have h7 : t.val % 8 = 7 := (flush0_4 t).mp hf
  show (cfg0.win 4).cut (grid0.coords t) ((dats (F := Ideal) m 0 c).after 4 t) = _
  rw [after0_4, out4_last m c t h7]
  exact cut4_eq (Cert.Spec.sOne (xo m c) (xt m c)) t _ fun i =>
    fold_last (f2 m c) (acc2 m c) (acc2_first m c) (acc2_next m c) t h7 i

theorem cover4 (i : S32x1x1.Idx) :
    ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 1 := (i 2).isLt
  obtain ⟨t, ht⟩ := last_band (i 0).val hi0
  obtain ⟨-, -, e0, e1, e2⟩ := idx_facts t
  refine ⟨t, (flush0_4 t).mpr (by omega), ?_⟩
  show i ∈ ((View.whole main_v0_2).slice (win0_4.rect t)).set
  rw [View.set_slice_whole, Rect.mem_set_unit]
  intro a
  match a with
  | ⟨0, _⟩ =>
    show win0_4.index t (0 : Fin 3) * 8 ≤ (i 0).val ∧ (i 0).val < win0_4.index t (0 : Fin 3) * 8 + 8
    omega
  | ⟨1, _⟩ =>
    show win0_4.index t (1 : Fin 3) * 1 ≤ (i 1).val ∧ (i 1).val < win0_4.index t (1 : Fin 3) * 1 + 1
    omega
  | ⟨2, _⟩ =>
    show win0_4.index t (2 : Fin 3) * 1 ≤ (i 2).val ∧ (i 2).val < win0_4.index t (2 : Fin 3) * 1 + 1
    omega

/-! ## The three arrays after the region -/

/-- The first result array ends at the label sums. -/
theorem final2 (c : Dev nD) : (dats (F := Ideal) m 0 c).arrAt 2 cfg0.N = col (Cert.Spec.cnt1 (xt m c)) := by
  exact (dats (F := Ideal) m 0 c).arrAt_eq_of_cover 2 (col (Cert.Spec.cnt1 (xt m c)))
    (fun t hf => flushed2_eq m c t hf) cover2

/-- The second result array ends at the loss sums. -/
theorem final3 (c : Dev nD) : (dats (F := Ideal) m 0 c).arrAt 3 cfg0.N = col (Cert.Spec.sAll (xo m c) (xt m c)) := by
  exact (dats (F := Ideal) m 0 c).arrAt_eq_of_cover 3 (col (Cert.Spec.sAll (xo m c) (xt m c)))
    (fun t hf => flushed3_eq m c t hf) cover3

/-- The third result array ends at the label-times-loss sums. -/
theorem final4 (c : Dev nD) : (dats (F := Ideal) m 0 c).arrAt 4 cfg0.N = col (Cert.Spec.sOne (xo m c) (xt m c)) := by
  exact (dats (F := Ideal) m 0 c).arrAt_eq_of_cover 4 (col (Cert.Spec.sOne (xo m c) (xt m c)))
    (fun t hf => flushed4_eq m c t hf) cover4

end Cert.KernelIdeal.KVal

end
-- ==== Proof.KTail.lean ====
/-
  The kernel program's host operations after the region, read at the ideal instance over the three result arrays
  (KVal.lean): class counts from the label sums, the class weights, per sample the quotient of
  `w0 · (S_all - S_1) + w1 · S_1` by `w0 · count0 + w1 · count1`, and the mean over the 32 samples —
  Spec.lean's `meanOf numK denK`. Then the program's run, read at its result.

  The 47 operations are first named as stages `t1` … `t38` over three arbitrary [32, 1, 1] arrays; what the operations
  leave in the result buffer is the last stage over the three result arrays (`tail_stage`). Each stage is then read at
  an index over arrays that are per-sample quantities laid out as columns (`t1_apply` … `t38_apply`): the reshapes
  and broadcasts move a sample's value to where it is used, the concatenation puts the two class counts side by side,
  the two sums along the class axis are two-term sums, and the last sum runs over the 32 samples.
-/
import proofs.«425937_j45887430590783_3_alg».proof.Proof.KVal
import Idealize.ShloMosaic.Lib.StableHlo.Run
import Idealize.ShloMosaic.Lib.ValueLayout
import Idealize.ShloMosaic.Lib.ValueIdxRank1
import Idealize.ShloMosaic.PureOps.Ideal.Laws

noncomputable section

namespace Cert.KernelIdeal.KVal

open Cert.KernelIdeal Cert.KernelIdeal.Gen
open Idealize.ShloMosaic Idealize.ShloMosaic.TcCoe Idealize.SL.Sem
open Idealize.ShloMosaic.Pipeline (Dat)
open Idealize.ShloMosaic.StableHlo Idealize.ShloMosaic.ValueIdx

variable (m : (ℓ : Loc nD τ sig) → Buf (Elt Ideal) ℓ) (ρ : Dev nD → PrngReg)

/-! The stages `t1` … `t38` and their readings at an index. -/
namespace Tail

/-! ## The operations after the region, as stages over the three result arrays -/

section Stages

variable (a2 a3 a4 : S32x1x1.Idx → EReal)

/-- The label sums, the loss sums and the label-times-loss sums as vectors of 32. -/
def t1 : FVec Ideal S32 .f32 := shapeCast S32 a2 shapeCasts_S32x1x1_S32
def t2 : FVec Ideal S32 .f32 := shapeCast S32 a3 shapeCasts_S32x1x1_S32
def t3 : FVec Ideal S32 .f32 := shapeCast S32 a4 shapeCasts_S32x1x1_S32
/-- The loss sum less the label-times-loss sum. -/
def t4 : FVec Ideal S32 .f32 := subf (t2 a3) (t3 a4)
/-- The count of class 0: the 2^20 pixels less the label sum. -/
def t6 : FVec Ideal S32 .f32 :=
  subf (broadcastInDim S32 ![] bcast_S_S32 (constant (F := Ideal) S_ .f32 0x49800000#32)) (t1 a2)
/-- The two class counts side by side. -/
def t9 : FVec Ideal S32x2 .f32 :=
  concatenate S32x2 1 [⟨S32x1, broadcastInDim S32x1 ![0] bcast_S32_S32x1_0 (t6 a2)⟩,
    ⟨S32x1, broadcastInDim S32x1 ![0] bcast_S32_S32x1_0 (t1 a2)⟩] concatenates_S32x1_S32x1_S32x2_d1
/-- Their sum per sample. -/
def t10 : FVec Ideal S32 .f32 :=
  Host.reduceAdd (t9 a2) (constant (F := Ideal) S_ .f32 0x00000000#32) reducesTo_S32x2_S32_d1 h_S_
/-- The class frequencies. -/
def t13 : FVec Ideal S32x2 .f32 :=
  Host.divf (t9 a2) (broadcastInDim S32x2 ![0, 1] bcast_S32x1_S32x2_0_1 (broadcastInDim S32x1 ![0] bcast_S32_S32x1_0 (t10 a2)))
/-- One less the frequency. -/
def t15 : FVec Ideal S32x2 .f32 :=
  subf (broadcastInDim S32x2 ![] bcast_S_S32x2 (constant (F := Ideal) S_ .f32 0x3F800000#32)) (t13 a2)
def t17 : FVec Ideal S32x2 .f32 :=
  mulf (t15 a2) (broadcastInDim S32x2 ![] bcast_S_S32x2 (constant (F := Ideal) S_ .f32 0x3ECCCCCD#32))
def t18 : FVec Ideal S32 .f32 :=
  Host.reduceAdd (t15 a2) (constant (F := Ideal) S_ .f32 0x00000000#32) reducesTo_S32x2_S32_d1 h_S_
def t21 : FVec Ideal S32x1 .f32 :=
  Host.divf (broadcastInDim S32x1 ![0] bcast_S32_S32x1_0 (t18 a2))
    (broadcastInDim S32x1 ![] bcast_S_S32x1 (constant (F := Ideal) S_ .f32 0x40000000#32))
def t23 : FVec Ideal S32x1 .f32 :=
  mulf (t21 a2) (broadcastInDim S32x1 ![] bcast_S_S32x1 (constant (F := Ideal) S_ .f32 0x3F19999A#32))
/-- The class weights. -/
def t25 : FVec Ideal S32x2 .f32 :=
  addf (t17 a2) (broadcastInDim S32x2 ![0, 1] bcast_S32x1_S32x2_0_1 (t23 a2))
/-- The weight of class 0 and of class 1, per sample. -/
def t27 : FVec Ideal S32 .f32 :=
  shapeCast S32 (extractStridedSlice S32x1 ![0, 0] (t25 a2) slices_S32x2_S32x1_0_0) shapeCasts_S32x1_S32
def t29 : FVec Ideal S32 .f32 :=
  shapeCast S32 (extractStridedSlice S32x1 ![0, 1] (t25 a2) slices_S32x2_S32x1_0_1) shapeCasts_S32x1_S32
/-- The weighted loss sum and the weight sum, per sample. -/
def t32 : FVec Ideal S32 .f32 := addf (mulf (t27 a2) (t4 a3 a4)) (mulf (t29 a2) (t3 a4))
def t35 : FVec Ideal S32 .f32 := addf (mulf (t27 a2) (t6 a2)) (mulf (t29 a2) (t1 a2))
def t36 : FVec Ideal S32 .f32 := Host.divf (t32 a2 a3 a4) (t35 a2)
def t37 : FVec Ideal S_ .f32 :=
  Host.reduceAdd (t36 a2 a3 a4) (constant (F := Ideal) S_ .f32 0x00000000#32) reducesTo_S32_S_d0 h_S_
/-- The mean over the 32 samples. -/
def t38 : FVec Ideal S_ .f32 := Host.divf (t37 a2 a3 a4) (constant (F := Ideal) S_ .f32 0x42000000#32)

end Stages

/-! ## The operations after the region are the stages over the three result arrays -/

set_option maxHeartbeats 1000000 in
/-- What the operations leave in the result buffer is the last stage over the three result arrays: each operation's
    result is its function of its operands' contents, and the three result arrays hold what the region left. -/
theorem tail_stage (c : Dev nD) :
    Pipeline.afterTail₀ cfgs (dats (F := Ideal) m) 0 (V0 m) [hostOps1] c main_v38
      = t38 ((dats (F := Ideal) m 0 c).arrAt 2 cfg0.N) ((dats (F := Ideal) m 0 c).arrAt 3 cfg0.N)
          ((dats (F := Ideal) m 0 c).arrAt 4 cfg0.N) := by
  unfold Pipeline.afterTail₀
  show StableHlo.after hostOps1 _ (Proc.devRef .tc main_v38) = _
  have h2 : Pipeline.withArrays (cfgs 0).spec c (V0 m c) (fun w => (dats (F := Ideal) m 0 c).arrAt w (cfgs 0).N)
      (Proc.devRef .tc main_v0_0) = (dats (F := Ideal) m 0 c).arrAt 2 cfg0.N :=
    Pipeline.withArrays_arr spec0 launch0.win.arr_inj c _ _ 2
  have h3 : Pipeline.withArrays (cfgs 0).spec c (V0 m c) (fun w => (dats (F := Ideal) m 0 c).arrAt w (cfgs 0).N)
      (Proc.devRef .tc main_v0_1) = (dats (F := Ideal) m 0 c).arrAt 3 cfg0.N :=
    Pipeline.withArrays_arr spec0 launch0.win.arr_inj c _ _ 3
  have h4 : Pipeline.withArrays (cfgs 0).spec c (V0 m c) (fun w => (dats (F := Ideal) m 0 c).arrAt w (cfgs 0).N)
      (Proc.devRef .tc main_v0_2) = (dats (F := Ideal) m 0 c).arrAt 4 cfg0.N :=
    Pipeline.withArrays_arr spec0 launch0.win.arr_inj c _ _ 4
  generalize Pipeline.withArrays (cfgs 0).spec c (V0 m c) (fun w => (dats (F := Ideal) m 0 c).arrAt w (cfgs 0).N) = W at h2 h3 h4 ⊢
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [h2, h3, h4]
  rfl

/-! ## The stages read at an index, over per-sample quantities laid out as [32, 1, 1] columns -/

section Read

variable (f g k : Fin 32 → EReal)

/-- A [32, 1, 1] column read as a vector of 32. -/
theorem cast_col (b : Fin 32) : shapeCast S32 (col f) shapeCasts_S32x1x1_S32 (ix1 b) = f b := by
  refine (shapeCast_apply (col f) shapeCasts_S32x1x1_S32 (ix1 b) (ix3 b 0 0) ?_).trans rfl
  rw [Shape.rowMajor_val_three, Shape.rowMajor_val_one]
  show (b.val * 1 + 0) * 1 + 0 = b.val
  omega

/-- A vector of 32 as a [32, 1] column. -/
theorem bcol (x : S32.Idx → EReal) (b : Fin 32) :
    broadcastInDim S32x1 ![0] bcast_S32_S32x1_0 x (ix2 b (0 : Fin 1)) = x (ix1 b) :=
  broadcastInDim_apply _ bcast_S32_S32x1_0 x (ix2 b (0 : Fin 1)) (ix1 b) (fun a => by
    match a with
    | ⟨0, _⟩ => show b.val = if (32 : Nat) = 1 then 0 else b.val; rw [if_neg (by decide)])

/-- A [32, 1] column repeated along a second axis of 2. -/
theorem brow (x : S32x1.Idx → EReal) (b : Fin 32) (c : Fin 2) :
    broadcastInDim S32x2 ![0, 1] bcast_S32x1_S32x2_0_1 x (ix2 b c) = x (ix2 b (0 : Fin 1)) :=
  broadcastInDim_apply _ bcast_S32x1_S32x2_0_1 x (ix2 b c) (ix2 b (0 : Fin 1)) (fun a => by
    match a with
    | ⟨0, _⟩ => show b.val = if (32 : Nat) = 1 then 0 else b.val; rw [if_neg (by decide)]
    | ⟨1, _⟩ => show 0 = if (1 : Nat) = 1 then 0 else c.val; rw [if_pos rfl])

/-- The sum along the second axis of a [32, 2] array, from zero. -/
theorem rowSum (x : S32x2.Idx → EReal) (b : Fin 32) :
    Host.reduceAdd (F := Ideal) (φ := .f32) x (constant (F := Ideal) S_ .f32 0x00000000#32) reducesTo_S32x2_S32_d1 h_S_ (ix1 b)
      = x (ix2 b (0 : Fin 2)) + x (ix2 b (1 : Fin 2)) := by
  simp only [Host.reduceAdd, Ideal.hostReduceAdd_def]
  rw [Ideal.hostReduceAdd_single reducesTo_S32x2_S32_d1 (by decide)]
  show Ideal.ofBits .f32 0x00000000#32 + ∑ k : Fin 2, x ((by decide : S32x2.Reduces [1] S32).lift (ix1 b) k) = _
  rw [Ideal.ofBits_zero_f32, zero_add, Fin.sum_univ_two]
  refine congrArg₂ (· + ·) (congrArg x (funext fun a => Fin.ext ?_)) (congrArg x (funext fun a => Fin.ext ?_))
  · match a with | ⟨0, _⟩ => rfl | ⟨1, _⟩ => rfl
  · match a with | ⟨0, _⟩ => rfl | ⟨1, _⟩ => rfl

theorem t1_apply (b : Fin 32) : t1 (col f) (ix1 b) = f b := cast_col f b
theorem t2_apply (b : Fin 32) : t2 (col g) (ix1 b) = g b := cast_col g b
theorem t3_apply (b : Fin 32) : t3 (col k) (ix1 b) = k b := cast_col k b

theorem t4_apply (b : Fin 32) : t4 (col g) (col k) (ix1 b) = g b - k b := by
  show t2 (col g) (ix1 b) - t3 (col k) (ix1 b) = _
  rw [t2_apply, t3_apply]

theorem t6_apply (b : Fin 32) : t6 (col f) (ix1 b) = Cert.Spec.hwW - f b := by
  show Cert.Spec.hwW - t1 (col f) (ix1 b) = _
  rw [t1_apply]

theorem t9_zero (b : Fin 32) : t9 (col f) (ix2 b (0 : Fin 2)) = Cert.Spec.hwW - f b := by
  unfold t9
  refine (concatenate_pair_apply_left (t := S32x2) (s₁ := S32x1) (s₂ := S32x1) (1 : Fin 2) _ _ concatenates_S32x1_S32x1_S32x2_d1 (ix2 b (0 : Fin 2)) rfl
    (ix2 b (0 : Fin 1)) (fun a => by match a with | ⟨0, _⟩ => rfl | ⟨1, _⟩ => rfl)).trans ?_
  exact (bcol (t6 (col f)) b).trans (t6_apply f b)

theorem t9_one (b : Fin 32) : t9 (col f) (ix2 b (1 : Fin 2)) = f b := by
  unfold t9
  refine (concatenate_pair_apply_right (t := S32x2) (s₁ := S32x1) (s₂ := S32x1) (1 : Fin 2) _ _ concatenates_S32x1_S32x1_S32x2_d1 (ix2 b (1 : Fin 2)) rfl rfl
    (ix2 b (0 : Fin 1)) (fun a ha => ?_) rfl).trans ?_
  · match a, ha with
    | ⟨0, _⟩, _ => rfl
    | ⟨1, _⟩, ha => exact absurd rfl ha
  · exact (bcol (t1 (col f)) b).trans (t1_apply f b)

theorem t9_apply (b : Fin 32) (c : Fin 2) :
    t9 (col f) (ix2 b c) = if c = 0 then Cert.Spec.hwW - f b else f b := by
  match c with
  | ⟨0, _⟩ => exact (t9_zero f b).trans (if_pos rfl).symm
  | ⟨1, _⟩ => exact (t9_one f b).trans (if_neg (fun h => Nat.one_ne_zero (congrArg Fin.val h))).symm

theorem t10_apply (b : Fin 32) : t10 (col f) (ix1 b) = (Cert.Spec.hwW - f b) + f b := by
  unfold t10
  rw [rowSum, t9_zero, t9_one]

theorem t15_apply (b : Fin 32) (c : Fin 2) :
    t15 (col f) (ix2 b c) = Cert.Spec.invFreq (Cert.Spec.hwW - f b) (f b) c := by
  show Cert.Spec.oneW - Ideal.div (t9 (col f) (ix2 b c))
      (broadcastInDim S32x2 ![0, 1] bcast_S32x1_S32x2_0_1 (broadcastInDim S32x1 ![0] bcast_S32_S32x1_0 (t10 (col f))) (ix2 b c)) = _
  rw [brow, bcol, t10_apply, t9_apply]
  rfl

theorem t17_apply (b : Fin 32) (c : Fin 2) :
    t17 (col f) (ix2 b c) = Cert.Spec.invFreq (Cert.Spec.hwW - f b) (f b) c * Cert.Spec.w04 := by
  show t15 (col f) (ix2 b c) * Cert.Spec.w04 = _
  rw [t15_apply]

theorem t18_apply (b : Fin 32) :
    t18 (col f) (ix1 b) = Cert.Spec.invFreq (Cert.Spec.hwW - f b) (f b) 0 + Cert.Spec.invFreq (Cert.Spec.hwW - f b) (f b) 1 := by
  unfold t18
  rw [rowSum, t15_apply, t15_apply]

theorem t23_apply (b : Fin 32) :
    t23 (col f) (ix2 b (0 : Fin 1))
      = Ideal.div (Cert.Spec.invFreq (Cert.Spec.hwW - f b) (f b) 0 + Cert.Spec.invFreq (Cert.Spec.hwW - f b) (f b) 1) Cert.Spec.twoW
          * Cert.Spec.w06 := by
  show Ideal.div (broadcastInDim S32x1 ![0] bcast_S32_S32x1_0 (t18 (col f)) (ix2 b (0 : Fin 1))) Cert.Spec.twoW * Cert.Spec.w06 = _
  rw [bcol, t18_apply]

theorem t25_apply (b : Fin 32) (c : Fin 2) :
    t25 (col f) (ix2 b c) = Cert.Spec.wts (Cert.Spec.hwW - f b) (f b) c := by
  show t17 (col f) (ix2 b c) + broadcastInDim S32x2 ![0, 1] bcast_S32x1_S32x2_0_1 (t23 (col f)) (ix2 b c) = _
  rw [t17_apply, brow, t23_apply]
  rfl

theorem t27_apply (b : Fin 32) : t27 (col f) (ix1 b) = Cert.Spec.wts (Cert.Spec.hwW - f b) (f b) 0 := by
  unfold t27
  refine (shapeCast_apply _ shapeCasts_S32x1_S32 (ix1 b) (ix2 b (0 : Fin 1)) ?_).trans ?_
  · rw [Shape.rowMajor_val_two, Shape.rowMajor_val_one]
    show b.val * 1 + 0 = b.val
    omega
  · exact (slice2_axis1_apply 0 (t25 (col f)) slices_S32x2_S32x1_0_0 b (0 : Fin 1) (0 : Fin 2) rfl).trans (t25_apply f b 0)

theorem t29_apply (b : Fin 32) : t29 (col f) (ix1 b) = Cert.Spec.wts (Cert.Spec.hwW - f b) (f b) 1 := by
  unfold t29
  refine (shapeCast_apply _ shapeCasts_S32x1_S32 (ix1 b) (ix2 b (0 : Fin 1)) ?_).trans ?_
  · rw [Shape.rowMajor_val_two, Shape.rowMajor_val_one]
    show b.val * 1 + 0 = b.val
    omega
  · exact (slice2_axis1_apply 1 (t25 (col f)) slices_S32x2_S32x1_0_1 b (0 : Fin 1) (1 : Fin 2) rfl).trans (t25_apply f b 1)

theorem t32_apply (b : Fin 32) :
    t32 (col f) (col g) (col k) (ix1 b)
      = Cert.Spec.wts (Cert.Spec.hwW - f b) (f b) 0 * (g b - k b) + Cert.Spec.wts (Cert.Spec.hwW - f b) (f b) 1 * k b := by
  show t27 (col f) (ix1 b) * t4 (col g) (col k) (ix1 b) + t29 (col f) (ix1 b) * t3 (col k) (ix1 b) = _
  rw [t27_apply, t29_apply, t4_apply, t3_apply]

theorem t35_apply (b : Fin 32) :
    t35 (col f) (ix1 b)
      = Cert.Spec.wts (Cert.Spec.hwW - f b) (f b) 0 * (Cert.Spec.hwW - f b) + Cert.Spec.wts (Cert.Spec.hwW - f b) (f b) 1 * f b := by
  show t27 (col f) (ix1 b) * t6 (col f) (ix1 b) + t29 (col f) (ix1 b) * t1 (col f) (ix1 b) = _
  rw [t27_apply, t29_apply, t6_apply, t1_apply]

theorem t36_apply (b : Fin 32) :
    t36 (col f) (col g) (col k) (ix1 b)
      = Ideal.div (Cert.Spec.wts (Cert.Spec.hwW - f b) (f b) 0 * (g b - k b) + Cert.Spec.wts (Cert.Spec.hwW - f b) (f b) 1 * k b)
          (Cert.Spec.wts (Cert.Spec.hwW - f b) (f b) 0 * (Cert.Spec.hwW - f b) + Cert.Spec.wts (Cert.Spec.hwW - f b) (f b) 1 * f b) := by
  show Ideal.div (t32 (col f) (col g) (col k) (ix1 b)) (t35 (col f) (ix1 b)) = _
  rw [t32_apply, t35_apply]

theorem t37_apply :
    t37 (col f) (col g) (col k) ix0 = ∑ b : Fin 32, t36 (col f) (col g) (col k) (ix1 b) := by
  unfold t37
  simp only [Host.reduceAdd, Ideal.hostReduceAdd_def]
  rw [Ideal.hostReduceAdd_total reducesTo_S32_S_d0 (fun b => b.elim0)]
  show Ideal.ofBits .f32 0x00000000#32 + ∑ j : S32.Idx, t36 (col f) (col g) (col k) j = _
  rw [Ideal.ofBits_zero_f32, zero_add, ← Equiv.sum_comp (idxEquiv1 (n := 32)).symm]
  rfl

theorem t38_apply :
    t38 (col f) (col g) (col k) ix0
      = Ideal.div (∑ b : Fin 32,
          Ideal.div (Cert.Spec.wts (Cert.Spec.hwW - f b) (f b) 0 * (g b - k b) + Cert.Spec.wts (Cert.Spec.hwW - f b) (f b) 1 * k b)
            (Cert.Spec.wts (Cert.Spec.hwW - f b) (f b) 0 * (Cert.Spec.hwW - f b) + Cert.Spec.wts (Cert.Spec.hwW - f b) (f b) 1 * f b))
          Cert.Spec.w32 := by
  show Ideal.div (t37 (col f) (col g) (col k) ix0) Cert.Spec.w32 = _
  rw [t37_apply]
  exact congrArg (Ideal.div · Cert.Spec.w32) (Finset.sum_congr rfl fun b _ => t36_apply f g k b)

end Read

/-- Over the kernel's three per-sample sums the stages end at the specification's mean. -/
theorem tail_spec (o : Cert.Spec.SO.Idx → EReal) (t : Cert.Spec.ST.Idx → BitVec 32) :
    t38 (col (Cert.Spec.cnt1 t)) (col (Cert.Spec.sAll o t)) (col (Cert.Spec.sOne o t)) ix0
      = Cert.Spec.meanOf (Cert.Spec.numK o t) (Cert.Spec.denK t) :=
  (t38_apply (Cert.Spec.cnt1 t) (Cert.Spec.sAll o t) (Cert.Spec.sOne o t)).trans rfl

end Tail

/-! ## The tail's result and the run -/

/-- The kernel program's result as the specification states it. -/
abbrev result (c : Dev nD) : Buf (Elt Ideal) ((c.tc : Thread nD τ).loc main_v38) :=
  fun _ => Cert.Spec.meanOf (Cert.Spec.numK (xo m c) (xt m c)) (Cert.Spec.denK (xt m c))

/-- The operations after the region, over the region's result arrays, end at the specification's mean. -/
theorem tail_eq (c : Dev nD) :
    Pipeline.afterTail₀ cfgs (dats (F := Ideal) m) 0 (V0 m) [hostOps1] c main_v38 = result m c := by
  rw [Tail.tail_stage, final2, final3, final4]
  funext i
  rw [eq_ix0 i]
  exact Tail.tail_spec (xo m c) (xt m c)

/-- The run, read: the result at the specification's mean, the arguments unchanged. -/
theorem run : θ_run defs (onTc (τ := τ) (main (F := Ideal))) ⟨m, fun _ => 0, ρ⟩ fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c =>
    ⟨((h c).2 main_v38 (Pipeline.mem_restRefs_of main_v38 rfl (by decide))).trans (tail_eq m c),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c)))⟩)
    (run_main m ρ)

end Cert.KernelIdeal.KVal

end
-- ==== Proof.RefCount.lean ====
/-
  The reference's class counts: the scatter-add of a one per pixel into a zero [32, 2] array, at the index pair
  (the pixel's sample, the pixel's label), leaves at (b, c) the number of pixels of sample b whose label is c.

  The road: (1) for a scatter with no window axes, both operand axes inserted and named by the index vector's two
  components, an update lands at (b, c) exactly when its two index components, read signed, are b and c;
  (2) the index array is the concatenation of the sample number (an iota, never negative, so its wrap is the
  identity) and the label (0 or 1, never negative, so its wrap is the identity); (3) the sum of a one over the pixels
  landing at (b, c), split by coordinates, keeps only sample b and counts its pixels labelled c.
-/
import proofs.«425937_j45887430590783_3_alg».proof.Proof.RefGen
import proofs.«425937_j45887430590783_3_alg».proof.Proof.Spec
import Idealize.ShloMosaic.Lib.ValueIdx
import Idealize.ShloMosaic.Lib.IdealHost
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.ValueIdx

namespace Count

/-! ## Where an update lands -/

/-- The scatter's dimension numbers: no window axes, both operand axes inserted, the index vector (axis 3 of the
    index array) naming operand axes 0 and 1. -/
abbrev D := scatter_S32x2_S32x1024x1024x2_S32x1024x1024_n_01_01_3

/-- An update lands at operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro heq a
      have e := congrFun (Option.some.inj heq) a
      have e' := congrArg Fin.val e
      simp only at e'
      have := h a
      omega
    · intro hall
      congr 1
      funext a
      refine Fin.ext ?_
      have := hall a
      show (d.start j idx a + (d.window j a : Int)).toNat = (i a).val
      omega
  · next h =>
    constructor
    · intro heq; cases heq
    · intro hall
      exfalso
      apply h
      intro a
      have := hall a
      have hlt : (i a).val < s.size a := (i a).isLt
      omega

/-- No operand axis is kept (both are inserted), so the window is the single element: its coordinate is 0. -/
theorem window_zero (j : S32x1024x1024.Idx) (a : Fin 2) : D.window j a = 0 := by
  unfold ScatterDims.window
  have hk : D.sKept = [] := by decide
  rw [dif_neg (by rw [hk]; exact List.not_mem_nil)]

/-- The index array's position of component 0 of pixel j's index vector: j's coordinates, then 0. -/
theorem siIdx0 (j : S32x1024x1024.Idx) (h : 0 < D.scatterDimsToOperandDims.length) :
    D.siIdx j ⟨0, h⟩ = ix4 (j 0) (j 1) (j 2) (0 : Fin 2) := by
  funext b; refine Fin.ext ?_
  match b with
  | ⟨0, _⟩ => rfl
  | ⟨1, _⟩ => rfl
  | ⟨2, _⟩ => rfl
  | ⟨3, _⟩ => rfl

/-- The index array's position of component 1 of pixel j's index vector: j's coordinates, then 1. -/
theorem siIdx1 (j : S32x1024x1024.Idx) (h : 1 < D.scatterDimsToOperandDims.length) :
    D.siIdx j ⟨1, h⟩ = ix4 (j 0) (j 1) (j 2) (1 : Fin 2) := by
  funext b; refine Fin.ext ?_
  match b with
  | ⟨0, _⟩ => rfl
  | ⟨1, _⟩ => rfl
  | ⟨2, _⟩ => rfl
  | ⟨3, _⟩ => rfl

/-- The start on operand axis 0 is component 0 of the pixel's index vector, read signed. -/
theorem start0 {w : Nat} (j : S32x1024x1024.Idx) (idx : IVec S32x1024x1024x2 w) :
    D.start j idx 0 = (idx (ix4 (j 0) (j 1) (j 2) (0 : Fin 2))).toInt := by
  unfold ScatterDims.start
  rw [dif_pos (by decide)]
  exact congrArg (fun k => (idx k).toInt) (siIdx0 j _)

/-- The start on operand axis 1 is component 1 of the pixel's index vector, read signed. -/
theorem start1 {w : Nat} (j : S32x1024x1024.Idx) (idx : IVec S32x1024x1024x2 w) :
    D.start j idx 1 = (idx (ix4 (j 0) (j 1) (j 2) (1 : Fin 2))).toInt := by
  unfold ScatterDims.start
  rw [dif_pos (by decide)]
  exact congrArg (fun k => (idx k).toInt) (siIdx1 j _)

/-- For these dimension numbers an update lands at (b, c) exactly when its index pair, read signed, is (b, c). -/
theorem resultIdx?_iff {w : Nat} (j : S32x1024x1024.Idx) (idx : IVec S32x1024x1024x2 w) (b : Fin 32) (c : Fin 2) :
    D.resultIdx? j idx = some (ix2 b c) ↔
      (idx (ix4 (j 0) (j 1) (j 2) (0 : Fin 2))).toInt = (b.val : Int) ∧ (idx (ix4 (j 0) (j 1) (j 2) (1 : Fin 2))).toInt = (c.val : Int) := by
  rw [resultIdx?_eq_some_iff]
  constructor
  · intro h
    have h0 := h 0
    have h1 := h 1
    rw [start0, window_zero] at h0
    rw [start1, window_zero] at h1
    exact ⟨by simpa using h0, by simpa using h1⟩
  · rintro ⟨h0, h1⟩ a
    match a with
    | ⟨0, _⟩ =>
      show D.start j idx 0 + (D.window j 0 : Int) = _
      rw [start0, window_zero, h0]; simp
    | ⟨1, _⟩ =>
      show D.start j idx 1 + (D.window j 1 : Int) = _
      rw [start1, window_zero, h1]; simp

/-! ## The index array at a pixel -/

variable {F : FTy → Type} [FloatOps F]

/-- A sample number below 32 is its own signed reading as a 32-bit word. -/
theorem toInt_ofNat_lt (n : Nat) (h : n < 32) : (BitVec.ofNat 32 n).toInt = (n : Int) := by
  have hn : (BitVec.ofNat 32 n).toNat = n := by rw [BitVec.toNat_ofNat]; omega
  rw [BitVec.toInt_eq_toNat_of_lt (by rw [hn]; omega), hn]

/-- A word whose signed reading is not negative compares "not less than zero". -/
theorem cmpi_slt_zero_of_nonneg (x : BitVec 32) (hx : 0 ≤ x.toInt) : IntOp.cmpi .slt x 0#32 = 0#1 := by
  show BitVec.ofBool (x.slt 0#32) = 0#1
  have hf : x.slt 0#32 = false := by
    simp only [BitVec.slt, BitVec.toInt_zero, decide_eq_false_iff_not, not_lt]; exact hx
  rw [hf]; rfl

/-- The index array's first component at pixel (b, h, w) is the sample number b. -/
theorem v16_at0 (x1 : S32x1024x1024.Idx → BitVec 32) (b : Fin 32) (h w : Fin 1024) :
    val_main_v16 (F := F) x1 (ix4 b h w (0 : Fin 2)) = BitVec.ofNat 32 b.val := by
  unfold val_main_v16
  rw [concatenate_pair_apply_left (s₁ := S32x1024x1024x1) (s₂ := S32x1024x1024x1) (3 : Fin 4) _ _ _ (ix4 b h w (0 : Fin 2)) rfl (ix4 b h w (0 : Fin 1))
    (fun a => by match a with | ⟨0, _⟩ => rfl | ⟨1, _⟩ => rfl | ⟨2, _⟩ => rfl | ⟨3, _⟩ => rfl)]
  rw [val_main_v14_apply, val_main_v13_apply, val_main_v7_apply, val_main_v4_apply, val_main_v1_apply, val_main_v0_apply,
    val_main_v3_apply, val_main_c_apply]
  show Scalar.select (IntOp.cmpi .slt (BitVec.ofNat 32 b.val) 0#32) _ (BitVec.ofNat 32 b.val) = _
  rw [cmpi_slt_zero_of_nonneg _ (by rw [toInt_ofNat_lt _ b.isLt]; omega), select_zero]

/-- The index array's second component at pixel (b, h, w) is the pixel's label. -/
theorem v16_at1 (x1 : S32x1024x1024.Idx → BitVec 32) (hlab : ∀ i, x1 i = 0#32 ∨ x1 i = 1#32) (b : Fin 32) (h w : Fin 1024) :
    val_main_v16 (F := F) x1 (ix4 b h w (1 : Fin 2)) = x1 (ix3 b h w) := by
  unfold val_main_v16
  rw [concatenate_pair_apply_right (s₁ := S32x1024x1024x1) (s₂ := S32x1024x1024x1) (3 : Fin 4) _ _ _ (ix4 b h w (1 : Fin 2)) rfl rfl (ix4 b h w (0 : Fin 1))
    (fun a ha => by match a, ha with | ⟨0, _⟩, _ => rfl | ⟨1, _⟩, _ => rfl | ⟨2, _⟩, _ => rfl | ⟨3, _⟩, ha => exact absurd rfl ha) rfl]
  rw [val_main_v15_apply, val_main_v12_apply, val_main_v9_apply, val_main_v11_apply, val_main_v8_apply, val_main_c_1_apply,
    val_main_v10_apply, val_main_c_2_apply]
  have hi : idx_main_v15 (ix4 b h w (0 : Fin 1)) = ix3 b h w := by
    funext a; match a with | ⟨0, _⟩ => rfl | ⟨1, _⟩ => rfl | ⟨2, _⟩ => rfl
  rw [hi]
  rcases hlab (ix3 b h w) with h0 | h1
  · rw [h0]; rfl
  · rw [h1]; rfl

/-! ## The sum over the pixels -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A label word that is 0 or 1 reads signed as the class c exactly when it is the word of c. -/
theorem lab_iff (x : BitVec 32) (hx : x = 0#32 ∨ x = 1#32) (c : Fin 2) :
    x.toInt = (c.val : Int) ↔ x = BitVec.ofNat 32 c.val := by
  rcases hx with rfl | rfl <;> revert c <;> decide

/-- The update of pixel (b', h, w) lands at (b, c) exactly when b' is b and the pixel's label is the word of c. -/
theorem lands_iff (x1 : S32x1024x1024.Idx → BitVec 32) (hlab : ∀ i, x1 i = 0#32 ∨ x1 i = 1#32)
    (b' b : Fin 32) (h w : Fin 1024) (c : Fin 2) :
    D.resultIdx? (ix3 b' h w) (val_main_v16 (F := F) x1) = some (ix2 b c) ↔
      b' = b ∧ x1 (ix3 b' h w) = BitVec.ofNat 32 c.val := by
  rw [resultIdx?_iff]
  show (val_main_v16 (F := F) x1 (ix4 b' h w (0 : Fin 2))).toInt = _ ∧ (val_main_v16 (F := F) x1 (ix4 b' h w (1 : Fin 2))).toInt = _ ↔ _
  rw [v16_at0, v16_at1 x1 hlab, toInt_ofNat_lt _ b'.isLt, lab_iff _ (hlab _)]
  constructor
  · rintro ⟨h1, h2⟩; exact ⟨Fin.ext (by omega), h2⟩
  · rintro ⟨h1, h2⟩; exact ⟨by rw [h1], h2⟩

end Count

open Count in
/-- The scatter's result at (b, c) is the count of sample b's pixels labelled c. -/
theorem counts (x1 : Cert.Spec.ST.Idx → BitVec 32) (hlab : ∀ i, x1 i = 0#32 ∨ x1 i = 1#32) (b : Fin 32) (c : Fin 2) :
    val_main_v18 (F := Ideal) x1 (ix2 b c) = Cert.Spec.cnt x1 c b := by
  unfold val_main_v18
  show Ideal.hostScatterAdd D (val_main_v2 (F := Ideal)) (val_main_v16 (F := Ideal) x1) (val_main_v17 (F := Ideal)) (ix2 b c) = _
  unfold Ideal.hostScatterAdd
  rw [val_main_v2_apply, val_main_cst_apply, Finset.sum_filter, sum_idx3]
  have h17 : ∀ j, val_main_v17 (F := Ideal) j = (1 : EReal) := fun j => by
    rw [val_main_v17_apply, val_main_cst_3_apply]; exact Ideal.ofBits_one_f32
  have h2 : (FloatOps.ofBits (F := Ideal) FTy.f32 0#32 : EReal) = 0 := Ideal.ofBits_zero_f32
  have key : ∀ b' : Fin 32,
      (∑ h : Fin 1024, ∑ w : Fin 1024,
        if D.resultIdx? (ix3 b' h w) (val_main_v16 (F := Ideal) x1) = some (ix2 b c) then val_main_v17 (F := Ideal) (ix3 b' h w) else 0)
        = if b' = b then Cert.Spec.cnt x1 c b else 0 := by
    intro b'
    simp only [lands_iff x1 hlab, h17]
    by_cases hb : b' = b
    · subst hb; simp only [true_and, if_true]; rfl
    · simp only [hb, false_and, if_false, Finset.sum_const_zero]
  simp only [key, Finset.sum_ite_eq', Finset.mem_univ, if_true]
  rw [h2, zero_add]

end Cert.ReferenceIdeal.RefVal

end
-- ==== Proof.RefWeights.lean ====
/-
  The reference's class weights from its class counts (the inverse frequency blended with its mean over the two
  classes), and the weight picked per pixel by the pixel's label.
-/
import proofs.«425937_j45887430590783_3_alg».proof.Proof.RefCount
import Idealize.ShloMosaic.Lib.Pipeline.Value
import Idealize.ShloMosaic.Lib.ValueLayout
import Idealize.ShloMosaic.Lib.ValueIdx
import Idealize.ShloMosaic.PureOps.Reduce
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.ValueIdx

namespace RefW

/-! ## The class weights from the class counts -/

/-- The row index the first row sum reads, seen from entry (b, c) of the broadcast total: sample b, class k. -/
theorem idx19_eq (b : Fin 32) (c k : Fin 2) :
    idx_main_v19 (idx_main_v20 (idx_main_v21 (ix2 b c))) k = ix2 b k := by
  funext a; match a with | ⟨0, _⟩ => rfl | ⟨1, _⟩ => rfl

/-- The row index the second row sum reads, seen from entry (b, c) of the broadcast mean: sample b, class k. -/
theorem idx27_eq (b : Fin 32) (c k : Fin 2) :
    idx_main_v27 (idx_main_v28 (idx_main_v33 (ix2 b c))) k = ix2 b k := by
  funext a; match a with | ⟨0, _⟩ => rfl | ⟨1, _⟩ => rfl

/-- One minus the class's share of the sample's pixels: the count of class c over the sum of the two counts (the row
    sum starts from the word of zero, which adds nothing), taken from one. -/
theorem v24_at (x1 : Cert.Spec.ST.Idx → BitVec 32) (hlab : ∀ i, x1 i = 0#32 ∨ x1 i = 1#32) (b : Fin 32) (c : Fin 2) :
    val_main_v24 (F := Ideal) x1 (ix2 b c) = Cert.Spec.invFreq (Cert.Spec.cnt x1 0 b) (Cert.Spec.cnt x1 1 b) c := by
  rw [val_main_v24_apply, val_main_v23_apply, val_main_cst_5_apply, val_main_v22_apply, val_main_v21_apply,
    val_main_v20_apply, val_main_v19_apply, val_main_cst_4_apply, Fin.sum_univ_two, idx19_eq, idx19_eq,
    counts x1 hlab, counts x1 hlab, counts x1 hlab]
  rw [Ideal.ofBits_def, Ideal.ofBits_def, Ideal.ofBits_zero_f32, zero_add, Ideal.subf_def, Ideal.hostDivf_def]
  unfold Cert.Spec.invFreq
  match c with
  | ⟨0, _⟩ => rfl
  | ⟨1, _⟩ => rfl

/-! ## The gather of the weights at the labels, read at an index -/

section Gather
variable {α : Type}

/-- The gather's dimension numbers: the sample axis a batching axis of the operand and of the start indices, the class
    axis collapsed and start-indexed, the index vector on the trailing unit axis, no offset axes. -/
abbrev gd := gather_S32x2_S32x1048576x1_S32x1048576_n_1_0_0_1_2_11

/-- The start-indices index (b, p, 0) at which result index (b, p) reads its one start-index component. -/
abbrev gIdx (b : Fin 32) (p : Fin 1048576) : S32x1048576x1.Idx := ix3 b p (0 : Fin 1)

/-- A start index read signed and clamped into the two classes (the class axis has size 2 and the slice size 1, so
    the clamp is into [0, 1]). -/
def clamp2 {w : Nat} (v : BitVec w) : Fin 2 := ⟨min v.toInt.toNat 1, by omega⟩

theorem gd_ob0 : (0 : Fin S32x2.rank) ∈ gd.operandBatchingDims := List.mem_singleton.mpr rfl
theorem gd_ob1 : (1 : Fin S32x2.rank) ∉ gd.operandBatchingDims := by
  intro h; exact absurd (List.mem_singleton.mp h) (by decide)
theorem gd_cs1 : (1 : Fin S32x2.rank) ∈ gd.collapsedSliceDims := List.mem_singleton.mpr rfl
theorem gd_sim1 : (1 : Fin S32x2.rank) ∈ gd.startIndexMap := List.mem_singleton.mpr rfl

/-- The gather read at (b, p). On the sample axis (batching: no start, no offset) the operand index is the result's
    batch coordinate b; on the class axis (collapsed and start-indexed: no batch coordinate, no offset) it is the
    start index held at (b, p, 0), taken signed and clamped into the two classes. -/
theorem gather_at {w : Nat} (x : S32x2.Idx → α) (idx : IVec S32x1048576x1 w) (b : Fin 32) (p : Fin 1048576) :
    Host.gather gd x idx (ix2 b p) = x (ix2 b (clamp2 (idx (gIdx b p)))) := by
  unfold Host.gather
  congr 1
  funext a
  refine Fin.ext ?_
  match a with
  | ⟨0, _⟩ =>
    show gd.start (ix2 b p) idx 0 + gd.batchCoord (ix2 b p) 0 + gd.offCoord (ix2 b p) 0 = b.val
    rw [GatherDims.start_batching _ _ _ _ gd_ob0,
      GatherDims.offCoord_eq_zero _ _ _ (fun h => ((GatherDims.mem_sKept _ _).mp h).2 gd_ob0),
      Nat.zero_add, Nat.add_zero]
    unfold GatherDims.batchCoord
    rw [dif_pos gd_ob0]
    rfl
  | ⟨1, _⟩ =>
    show gd.start (ix2 b p) idx 1 + gd.batchCoord (ix2 b p) 1 + gd.offCoord (ix2 b p) 1
      = min (idx (gIdx b p)).toInt.toNat 1
    rw [GatherDims.batchCoord_eq_zero _ _ _ gd_ob1,
      GatherDims.offCoord_eq_zero _ _ _ (fun h => ((GatherDims.mem_sKept _ _).mp h).1 gd_cs1),
      Nat.add_zero]
    unfold GatherDims.start
    rw [dif_pos gd_sim1]
    have hsi : gd.siIdx (ix2 b p) ⟨List.idxOf (1 : Fin S32x2.rank) gd.startIndexMap,
        List.idxOf_lt_length_iff.2 gd_sim1⟩ = gIdx b p := by
      funext c; refine Fin.ext ?_
      match c with
      | ⟨0, _⟩ => rfl
      | ⟨1, _⟩ => rfl
      | ⟨2, _⟩ => rfl
    rw [hsi]
    rfl

/-- A label 0 or 1, read signed and clamped into the two classes, is its class. -/
theorem clamp2_label (v : BitVec 32) (hv : v = 0#32 ∨ v = 1#32) :
    clamp2 v = if v = 0#32 then 0 else 1 := by
  rcases hv with rfl | rfl <;> rfl

end Gather

/-! ## The in-bounds mask -/

section Mask

/-- A left fold by the one-bit AND, started at 1, over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- A reduce by AND, from the initial value 1, of an array of ones is 1 at every result index: whichever operand
    indices reduce into it, the fold meets only ones. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ (fun i _ => hx i)

variable (x1 : Cert.Spec.ST.Idx → BitVec 32) (hlab : ∀ i, x1 i = 0#32 ∨ x1 i = 1#32)
include hlab

/-- The wrapped index is the label itself: a label 0 or 1 is not negative as a signed word. -/
theorem v4_at (j : S32x1048576.Idx) : val_main_call2_v4 (F := Ideal) x1 j = x1 (idx_main_v40 j) := by
  rw [val_main_call2_v4_apply, val_main_call2_v1_apply, val_main_call2_v3_apply, val_main_v40_apply,
    val_main_call2_v0_apply, val_main_call2_c_apply, val_main_call2_v2_apply, val_main_call2_c_0_apply]
  rcases hlab (idx_main_v40 j) with h | h <;> rw [h] <;> rfl

/-- Every label lies in [0, 1]: the bounds test (at least 0 and at most 1, signed) is 1 everywhere. -/
theorem v11_one (i : S32x1048576x1.Idx) : val_main_call2_v11 (F := Ideal) x1 i = 1#1 := by
  rw [val_main_call2_v11_apply, val_main_call2_v7_apply, val_main_call2_v10_apply, val_main_call2_v5_apply,
    val_main_call2_v6_apply, val_main_call2_c_2_apply, val_main_call2_v9_apply, val_main_call2_v8_apply,
    val_main_call2_c_1_apply, v4_at x1 hlab]
  rcases hlab (idx_main_v40 (idx_main_call2_v5 i)) with h | h <;> rw [h] <;> rfl

/-- So the mask, its reduce by AND over the trailing unit axis, is 1 everywhere. -/
theorem v12_one (j : S32x1048576.Idx) : val_main_call2_v12 (F := Ideal) x1 j = 1#1 := by
  unfold val_main_call2_v12
  exact reduce_andi_one _ _ _ _ rfl (v11_one x1 hlab) j

end Mask

/-! ## The two reshapes: a pixel's flat position -/

section Flat

/-- The flat position of pixel (h, w) within its sample, row-major. -/
abbrev pix (h w : Fin 1024) : Fin 1048576 := ⟨h.val * 1024 + w.val, by omega⟩

/-- Pixel (b, h, w) of the reshaped result is entry (b, 1024 h + w) of the flat one. -/
theorem idx42_eq (b : Fin 32) (h w : Fin 1024) : idx_main_v42 (ix3 b h w) = ix2 b (pix h w) := by
  have hb := b.isLt; have hh := h.isLt; have hw := w.isLt
  funext a
  match a with
  | ⟨0, _⟩ =>
    refine Fin.ext ?_
    show ((b.val * 1024 + h.val) * 1024 + w.val) / 1048576 = b.val
    omega
  | ⟨1, _⟩ =>
    refine Fin.ext ?_
    show ((b.val * 1024 + h.val) * 1024 + w.val) % 1048576 = h.val * 1024 + w.val
    omega

/-- Row-major arithmetic: the flat position 2^20 b + (1024 h + w), passed through a trailing unit axis and back,
    splits again into b, h and w. -/
theorem flat_split (b h w : Nat) (hb : b < 32) (hh : h < 1024) (hw : w < 1024) :
    ((((b * 1048576 + (h * 1024 + w)) * 1 + 0) / 1048576 * 1048576
        + ((b * 1048576 + (h * 1024 + w)) * 1 + 0) % 1048576) / 1048576 = b) ∧
    ((((b * 1048576 + (h * 1024 + w)) * 1 + 0) / 1048576 * 1048576
        + ((b * 1048576 + (h * 1024 + w)) * 1 + 0) % 1048576) / 1024 % 1024 = h) ∧
    ((((b * 1048576 + (h * 1024 + w)) * 1 + 0) / 1048576 * 1048576
        + ((b * 1048576 + (h * 1024 + w)) * 1 + 0) % 1048576) % 1024 = w) := by
  refine ⟨?_, ?_, ?_⟩ <;> omega

/-- Entry (b, 1024 h + w, 0) of the start indices holds the label of pixel (b, h, w). -/
theorem idx40_eq (b : Fin 32) (h w : Fin 1024) :
    idx_main_v40 (idx_main_call2_v5 (gIdx b (pix h w))) = ix3 b h w := by
  have e := flat_split b.val h.val w.val b.isLt h.isLt w.isLt
  funext a
  match a with
  | ⟨0, _⟩ => exact Fin.ext e.1
  | ⟨1, _⟩ => exact Fin.ext e.2.1
  | ⟨2, _⟩ => exact Fin.ext e.2.2

end Flat

end RefW

/-- The weights array at (b, c) is the class weight from sample b's two counts. -/
theorem weights (x1 : Cert.Spec.ST.Idx → BitVec 32) (hlab : ∀ i, x1 i = 0#32 ∨ x1 i = 1#32) (b : Fin 32) (c : Fin 2) :
    val_main_v34 (F := Ideal) x1 (ix2 b c) = Cert.Spec.wts (Cert.Spec.cnt x1 0 b) (Cert.Spec.cnt x1 1 b) c := by
  rw [val_main_v34_apply, val_main_v26_apply, val_main_v33_apply, val_main_v32_apply, val_main_v30_apply,
    val_main_v28_apply, val_main_v27_apply, val_main_v25_apply, val_main_v31_apply, val_main_v29_apply,
    val_main_cst_6_apply, val_main_cst_7_apply, val_main_cst_8_apply, val_main_cst_9_apply,
    Fin.sum_univ_two, RefW.idx27_eq, RefW.idx27_eq, RefW.v24_at x1 hlab, RefW.v24_at x1 hlab, RefW.v24_at x1 hlab]
  rw [Ideal.ofBits_def, Ideal.ofBits_def, Ideal.ofBits_def, Ideal.ofBits_def, Ideal.ofBits_zero_f32, zero_add,
    Ideal.addf_def, Ideal.mulf_def, Ideal.mulf_def, Ideal.hostDivf_def]
  rfl

/-- The per-pixel weight: the weights array read at the pixel's label. -/
theorem wpix_eq (x1 : Cert.Spec.ST.Idx → BitVec 32) (hlab : ∀ i, x1 i = 0#32 ∨ x1 i = 1#32) (b : Fin 32) (h w : Fin 1024) :
    val_main_v42 (F := Ideal) x1 (ix3 b h w) = Cert.Spec.wpix x1 b h w := by
  rw [val_main_v42_apply, RefW.idx42_eq, val_main_v41_apply, RefW.v12_one x1 hlab, select_one]
  unfold val_main_call2_v13
  rw [RefW.gather_at, val_main_call2_v5_apply, RefW.v4_at x1 hlab, RefW.idx40_eq, RefW.clamp2_label _ (hlab _),
    weights x1 hlab]
  rfl

end Cert.ReferenceIdeal.RefVal

end
-- ==== Proof.RefLoss.lean ====
/-
  The reference's per-pixel loss: the log-softmax of the two logits (shifted by the larger one), read at the
  pixel's label, negated.
-/
import proofs.«425937_j45887430590783_3_alg».proof.Proof.RefGen
import proofs.«425937_j45887430590783_3_alg».proof.Proof.Spec
import Idealize.ShloMosaic.Lib.Pipeline.Value
import Idealize.ShloMosaic.Lib.ValueLayout
import Idealize.ShloMosaic.Lib.ValueIdxCoords
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.ValueIdx

/-! ## The log-softmax of the two logits at an index -/

/-- The index over (b, h, w) with class k put back on the class axis is (b, k, h, w). -/
theorem lift_cls (hR : S32x2x1024x1024.Reduces [1] S32x1024x1024) (b : Fin 32) (h w : Fin 1024) (k : Fin 2) :
    hR.lift (ix3 b h w) k = ix4 b k h w := by
  funext c; apply Fin.ext
  match c with
  | ⟨0, _⟩ => rfl
  | ⟨1, _⟩ => rfl
  | ⟨2, _⟩ => rfl
  | ⟨3, _⟩ => rfl

/-- The word 0xFF800000 is −∞. -/
theorem negInf_eq_bot : Ideal.ofBits .f32 0xFF800000#32 = (⊥ : EReal) := by simp [Ideal.ofBits, Ideal.ieee]

/-- From −∞ the maximum over the two classes is the larger logit. -/
theorem call0_v0_at (x0 : Cert.Spec.SO.Idx → EReal) (b : Fin 32) (h w : Fin 1024) :
    val_main_call0_v0 (F := Ideal) x0 (ix3 b h w) = max (x0 (ix4 b 0 h w)) (x0 (ix4 b 1 h w)) := by
  unfold val_main_call0_v0
  have hR : S32x2x1024x1024.Reduces [1] S32x1024x1024 := by decide
  have e := Host.reduce_eq_fold_single (FloatOps.maximumf (F := Ideal) (φ := .f32)) x0 (val_main_call0_cst (F := Ideal))
    reducesTo_S32x2x1024x1024_S32x1024x1024_d1 hR h_S_ (ix3 b h w)
  refine e.trans ?_
  show Finset.fold (max : EReal → EReal → EReal) (Ideal.ofBits .f32 0xFF800000#32)
    (fun k : Fin 2 => x0 (hR.lift (ix3 b h w) k)) (Finset.univ : Finset (Fin 2)) = _
  rw [negInf_eq_bot, show (Finset.univ : Finset (Fin 2)) = {0, 1} from by decide,
    Finset.fold_insert (by decide), Finset.fold_singleton, lift_cls, lift_cls, max_bot_right]

/-- The class axis dropped and put back as a unit axis. -/
theorem idx_call0_v4_at (b : Fin 32) (c : Fin 2) (h w : Fin 1024) :
    idx_main_call0_v4 (ix4 b c h w) = ix4 b u0 h w := by
  funext a
  match a with
  | ⟨0, _⟩ => rfl
  | ⟨1, _⟩ => rfl
  | ⟨2, _⟩ => rfl
  | ⟨3, _⟩ => rfl

theorem idx_call0_v3_at (b : Fin 32) (h w : Fin 1024) :
    idx_main_call0_v3 (ix4 b u0 h w) = ix3 b h w := by
  funext a
  match a with
  | ⟨0, _⟩ => rfl
  | ⟨1, _⟩ => rfl
  | ⟨2, _⟩ => rfl

/-- The shift: the larger logit, broadcast back over the class axis. -/
theorem call0_v4_at (x0 : Cert.Spec.SO.Idx → EReal) (b : Fin 32) (c : Fin 2) (h w : Fin 1024) :
    val_main_call0_v4 (F := Ideal) x0 (ix4 b c h w) = max (x0 (ix4 b 0 h w)) (x0 (ix4 b 1 h w)) := by
  rw [val_main_call0_v4_apply, idx_call0_v4_at, val_main_call0_v3_apply, idx_call0_v3_at, val_main_call0_v2_apply,
    call0_v0_at, val_main_call0_v1_apply, val_main_call0_cst_0_apply]
  show max (Ideal.ofBits .f32 0xFF800000#32) _ = _
  rw [negInf_eq_bot, max_bot_left]

/-- The shifted logit. -/
theorem call0_v5_at (x0 : Cert.Spec.SO.Idx → EReal) (b : Fin 32) (c : Fin 2) (h w : Fin 1024) :
    val_main_call0_v5 (F := Ideal) x0 (ix4 b c h w)
      = x0 (ix4 b c h w) - max (x0 (ix4 b 0 h w)) (x0 (ix4 b 1 h w)) := by
  rw [val_main_call0_v5_apply, call0_v4_at]; rfl

theorem idx_call0_v7_at (b : Fin 32) (h w : Fin 1024) (k : Fin 2) :
    idx_main_call0_v7 (ix3 b h w) k = ix4 b k h w := by
  funext a
  match a with
  | ⟨0, _⟩ => rfl
  | ⟨1, _⟩ => rfl
  | ⟨2, _⟩ => rfl
  | ⟨3, _⟩ => rfl

/-- The sum over the two classes of the exponentials of the shifted logits. -/
theorem call0_v7_at (x0 : Cert.Spec.SO.Idx → EReal) (b : Fin 32) (h w : Fin 1024) :
    val_main_call0_v7 (F := Ideal) x0 (ix3 b h w)
      = Ideal.exp (x0 (ix4 b 0 h w) - max (x0 (ix4 b 0 h w)) (x0 (ix4 b 1 h w)))
        + Ideal.exp (x0 (ix4 b 1 h w) - max (x0 (ix4 b 0 h w)) (x0 (ix4 b 1 h w))) := by
  rw [val_main_call0_v7_apply, Fin.sum_univ_two, idx_call0_v7_at, idx_call0_v7_at, val_main_call0_v6_apply,
    val_main_call0_v6_apply, call0_v5_at, call0_v5_at, val_main_call0_cst_1_apply]
  show Ideal.ofBits .f32 0x00000000#32 + (Ideal.exp _ + Ideal.exp _) = _
  rw [Ideal.ofBits_zero_f32, zero_add]

/-- The log-softmax at (b, c, h, w): the shifted logit minus the log of the sum of the shifted exponentials. -/
theorem v35_at (x0 : Cert.Spec.SO.Idx → EReal) (b : Fin 32) (c : Fin 2) (h w : Fin 1024) :
    val_main_v35 (F := Ideal) x0 (ix4 b c h w)
      = (x0 (ix4 b c h w) - max (x0 (ix4 b 0 h w)) (x0 (ix4 b 1 h w)))
        - Ideal.log (Ideal.exp (x0 (ix4 b 0 h w) - max (x0 (ix4 b 0 h w)) (x0 (ix4 b 1 h w)))
          + Ideal.exp (x0 (ix4 b 1 h w) - max (x0 (ix4 b 0 h w)) (x0 (ix4 b 1 h w)))) := by
  rw [val_main_v35_apply, call0_v5_at, val_main_call0_v10_apply,
    show idx_main_call0_v10 (ix4 b c h w) = ix4 b u0 h w from idx_call0_v4_at b c h w,
    val_main_call0_v9_apply, val_main_call0_v8_apply,
    show idx_main_call0_v8 (ix4 b u0 h w) = ix3 b h w from idx_call0_v3_at b h w, call0_v7_at]
  rfl

/-! ## The index the gather reads, and its in-bounds mask -/

theorem idx_v36_at (b : Fin 32) (h w : Fin 1024) : idx_main_v36 (ix4 b u0 h w) = ix3 b h w := by
  funext a
  match a with
  | ⟨0, _⟩ => rfl
  | ⟨1, _⟩ => rfl
  | ⟨2, _⟩ => rfl

/-- A label 0 or 1 is not negative, so the wrapped index is the label itself. -/
theorem call1_v4_at (x1 : Cert.Spec.ST.Idx → BitVec 32) (hlab : ∀ i, x1 i = 0#32 ∨ x1 i = 1#32)
    (b : Fin 32) (h w : Fin 1024) :
    val_main_call1_v4 (F := Ideal) x1 (ix4 b u0 h w) = x1 (ix3 b h w) := by
  rw [val_main_call1_v4_apply, val_main_call1_v1_apply, val_main_call1_v3_apply, val_main_v36_apply, idx_v36_at,
    val_main_call1_v0_apply, val_main_call1_c_apply, val_main_call1_v2_apply, val_main_call1_c_0_apply]
  rcases hlab (ix3 b h w) with e | e <;> rw [e] <;> decide

theorem idx_call1_v5_at (b : Fin 32) (h w : Fin 1024) :
    idx_main_call1_v5 (ix5 b u0 h w u0) = ix4 b u0 h w := by
  have hb := b.isLt; have hh := h.isLt; have hw := w.isLt
  funext a
  match a with
  | ⟨0, _⟩ =>
    exact Fin.ext (by
      show ((((b.val * 1 + 0) * 1024 + h.val) * 1024 + w.val) * 1 + 0) / 1048576 = b.val; omega)
  | ⟨1, _⟩ => rfl
  | ⟨2, _⟩ =>
    exact Fin.ext (by
      show ((((b.val * 1 + 0) * 1024 + h.val) * 1024 + w.val) * 1 + 0) / 1024 % 1024 = h.val; omega)
  | ⟨3, _⟩ =>
    exact Fin.ext (by
      show ((((b.val * 1 + 0) * 1024 + h.val) * 1024 + w.val) * 1 + 0) % 1024 = w.val; omega)

/-- The start index at (b, 0, h, w, 0) is the label. -/
theorem call1_v5_at (x1 : Cert.Spec.ST.Idx → BitVec 32) (hlab : ∀ i, x1 i = 0#32 ∨ x1 i = 1#32)
    (b : Fin 32) (h w : Fin 1024) :
    val_main_call1_v5 (F := Ideal) x1 (ix5 b u0 h w u0) = x1 (ix3 b h w) := by
  rw [val_main_call1_v5_apply, idx_call1_v5_at, call1_v4_at x1 hlab]

/-- The index over (b, 0, h, w) with the trailing unit coordinate put back. -/
theorem lift_unit (hR : S32x1x1024x1024x1.Reduces [4] S32x1x1024x1024) (b : Fin 32) (h w : Fin 1024) (k : Fin 1) :
    hR.lift (ix4 b u0 h w) k = ix5 b u0 h w u0 := by
  funext c; apply Fin.ext
  match c with
  | ⟨0, _⟩ => rfl
  | ⟨1, _⟩ => rfl
  | ⟨2, _⟩ => rfl
  | ⟨3, _⟩ => rfl
  | ⟨4, _⟩ => show k.val = 0; omega

/-- A label 0 or 1 lies in [0, 1], so the in-bounds mask is set. -/
theorem call1_v12_at (x1 : Cert.Spec.ST.Idx → BitVec 32) (hlab : ∀ i, x1 i = 0#32 ∨ x1 i = 1#32)
    (b : Fin 32) (h w : Fin 1024) :
    val_main_call1_v12 (F := Ideal) x1 (ix4 b u0 h w) = 1#1 := by
  unfold val_main_call1_v12
  have hR : S32x1x1024x1024x1.Reduces [4] S32x1x1024x1024 := by decide
  have e := Host.reduce_eq_fold_single (IntOp.andi (w := 1)) (val_main_call1_v11 (F := Ideal) x1)
    (val_main_call1_c_3 (F := Ideal)) reducesTo_S32x1x1024x1024x1_S32x1x1024x1024_d4 hR h_S_ (ix4 b u0 h w)
  refine e.trans ?_
  show Finset.fold (IntOp.andi (w := 1)) (1#1)
    (fun k : Fin 1 => val_main_call1_v11 (F := Ideal) x1 (hR.lift (ix4 b u0 h w) k)) (Finset.univ : Finset (Fin 1)) = _
  rw [show (Finset.univ : Finset (Fin 1)) = {0} from by decide, Finset.fold_singleton, lift_unit,
    val_main_call1_v11_apply, val_main_call1_v7_apply, val_main_call1_v10_apply, call1_v5_at x1 hlab,
    val_main_call1_v6_apply, val_main_call1_c_2_apply, val_main_call1_v9_apply, val_main_call1_v8_apply,
    val_main_call1_c_1_apply]
  rcases hlab (ix3 b h w) with e | e <;> rw [e] <;> decide

/-! ## The gather, read at an index -/

/-- The gather's dimension numbers: batch axes 0, 2, 3 on both sides, the class axis collapsed and indexed. -/
abbrev gD := gather_S32x2x1024x1024_S32x1x1024x1024x1_S32x1x1024x1024_n_1_023_023_1_4_1111

/-- The start-indices index read for result index (b, 0, h, w): the same batch coordinates, component 0. -/
theorem gather_siIdx_at (b : Fin 32) (h w : Fin 1024) (hc : List.idxOf (1 : Fin 4) gD.startIndexMap < gD.startIndexMap.length) :
    gD.siIdx (ix4 b u0 h w) ⟨List.idxOf (1 : Fin 4) gD.startIndexMap, hc⟩ = ix5 b u0 h w u0 := by
  funext c; refine Fin.ext ?_
  match c with
  | ⟨0, _⟩ => rfl
  | ⟨1, _⟩ => rfl
  | ⟨2, _⟩ => rfl
  | ⟨3, _⟩ => rfl
  | ⟨4, _⟩ => rfl

/-- The operand index of result index (b, 0, h, w): the batch coordinates b, h, w kept, and on the class axis the
    start index read signed and clamped into [0, 1]. -/
theorem gather_idx_at (idx : IVec S32x1x1024x1024x1 32) (b : Fin 32) (h w : Fin 1024) :
    gD.operandIdx (ix4 b u0 h w) idx
      = ix4 b (⟨min (idx (ix5 b u0 h w u0)).toInt.toNat 1, by omega⟩ : Fin 2) h w := by
  funext a; apply Fin.ext
  match a with
  | ⟨0, _⟩ =>
    show gD.start (ix4 b u0 h w) idx 0 + gD.batchCoord (ix4 b u0 h w) 0 + gD.offCoord (ix4 b u0 h w) 0 = b.val
    rw [gD.start_batching (ix4 b u0 h w) idx 0 (by decide), gD.offCoord_eq_zero (ix4 b u0 h w) 0 (by decide),
      Nat.zero_add, Nat.add_zero]
    unfold GatherDims.batchCoord
    rw [dif_pos (show (0 : Fin 4) ∈ gD.operandBatchingDims from by decide)]
    rfl
  | ⟨1, _⟩ =>
    show gD.start (ix4 b u0 h w) idx 1 + gD.batchCoord (ix4 b u0 h w) 1 + gD.offCoord (ix4 b u0 h w) 1
      = min (idx (ix5 b u0 h w u0)).toInt.toNat 1
    rw [gD.batchCoord_eq_zero (ix4 b u0 h w) 1 (by decide), gD.offCoord_eq_zero (ix4 b u0 h w) 1 (by decide),
      Nat.add_zero]
    unfold GatherDims.start
    rw [dif_pos (show (1 : Fin 4) ∈ gD.startIndexMap from by decide), gather_siIdx_at]
    rfl
  | ⟨2, _⟩ =>
    show gD.start (ix4 b u0 h w) idx 2 + gD.batchCoord (ix4 b u0 h w) 2 + gD.offCoord (ix4 b u0 h w) 2 = h.val
    rw [gD.start_batching (ix4 b u0 h w) idx 2 (by decide), gD.offCoord_eq_zero (ix4 b u0 h w) 2 (by decide),
      Nat.zero_add, Nat.add_zero]
    unfold GatherDims.batchCoord
    rw [dif_pos (show (2 : Fin 4) ∈ gD.operandBatchingDims from by decide)]
    rfl
  | ⟨3, _⟩ =>
    show gD.start (ix4 b u0 h w) idx 3 + gD.batchCoord (ix4 b u0 h w) 3 + gD.offCoord (ix4 b u0 h w) 3 = w.val
    rw [gD.start_batching (ix4 b u0 h w) idx 3 (by decide), gD.offCoord_eq_zero (ix4 b u0 h w) 3 (by decide),
      Nat.zero_add, Nat.add_zero]
    unfold GatherDims.batchCoord
    rw [dif_pos (show (3 : Fin 4) ∈ gD.operandBatchingDims from by decide)]
    rfl

/-- The gathered value at (b, 0, h, w): the log-softmax at the label's class. -/
theorem call1_v13_at (x0 : Cert.Spec.SO.Idx → EReal) (x1 : Cert.Spec.ST.Idx → BitVec 32)
    (hlab : ∀ i, x1 i = 0#32 ∨ x1 i = 1#32) (b : Fin 32) (h w : Fin 1024) :
    val_main_call1_v13 (F := Ideal) x0 x1 (ix4 b u0 h w)
      = val_main_v35 (F := Ideal) x0 (ix4 b (Cert.Spec.cls x1 b h w) h w) := by
  unfold val_main_call1_v13 Host.gather
  show val_main_v35 (F := Ideal) x0 (gD.operandIdx (ix4 b u0 h w) (val_main_call1_v5 (F := Ideal) x1)) = _
  rw [gather_idx_at]
  refine congrArg (fun c : Fin 2 => val_main_v35 (F := Ideal) x0 (ix4 b c h w)) (Fin.ext ?_)
  show min (val_main_call1_v5 (F := Ideal) x1 (ix5 b u0 h w u0)).toInt.toNat 1 = (Cert.Spec.cls x1 b h w).val
  rw [call1_v5_at x1 hlab]
  unfold Cert.Spec.cls Cert.Spec.lab
  rcases hlab (ix3 b h w) with e | e <;> rw [e] <;> decide

theorem idx_v38_at (b : Fin 32) (h w : Fin 1024) : idx_main_v38 (ix3 b h w) = ix4 b u0 h w := by
  have hb := b.isLt; have hh := h.isLt; have hw := w.isLt
  funext a
  match a with
  | ⟨0, _⟩ => exact Fin.ext (by show ((b.val * 1024 + h.val) * 1024 + w.val) / 1048576 = b.val; omega)
  | ⟨1, _⟩ => rfl
  | ⟨2, _⟩ => exact Fin.ext (by show ((b.val * 1024 + h.val) * 1024 + w.val) / 1024 % 1024 = h.val; omega)
  | ⟨3, _⟩ => exact Fin.ext (by show ((b.val * 1024 + h.val) * 1024 + w.val) % 1024 = w.val; omega)

/-- The negated log-softmax picked at the pixel's label is the specification's reference loss. -/
theorem nll_eq (x0 : Cert.Spec.SO.Idx → EReal) (x1 : Cert.Spec.ST.Idx → BitVec 32)
    (hlab : ∀ i, x1 i = 0#32 ∨ x1 i = 1#32) (b : Fin 32) (h w : Fin 1024) :
    val_main_v39 (F := Ideal) x0 x1 (ix3 b h w) = Cert.Spec.nllR x0 x1 b h w := by
  rw [val_main_v39_apply, val_main_v38_apply, idx_v38_at, val_main_v37_apply, call1_v12_at x1 hlab, select_one,
    call1_v13_at x0 x1 hlab, v35_at]
  rfl

end Cert.ReferenceIdeal.RefVal

end
-- ==== Proof.LibIdx3.lean ====
/-
  Rank-1 and rank-3 index sets as products of their coordinate ranges: the companions of the library's `idxEquiv2` and
  `sum_idx2`, and the sum over the indices with a given first coordinate as the double sum over the other two
  (what a reduction over the two trailing axes of a rank-3 array, or a selection of one leading slice, sums).
-/
import Idealize.ShloMosaic.Lib.ValueIdx

namespace LibIdx3

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the rank-3 indices whose first coordinate is `a` (selected by any decidable predicate `p` saying so)
    is the double sum over the other two coordinates. -/
theorem sum_idx3_fst {M : Type*} [AddCommMonoid M] {n0 n1 n2 : Nat} (f : (⟨3, ![n0, n1, n2]⟩ : Shape).Idx → M)
    (a : Fin n0) (p : (⟨3, ![n0, n1, n2]⟩ : Shape).Idx → Prop) [DecidablePred p]
    (hp : ∀ i, p i ↔ (i 0).val = a.val) :
    ∑ i ∈ Finset.univ.filter p, f i = ∑ b : Fin n1, ∑ c : Fin n2, f (ix3 a b c) := by
  rw [Finset.sum_filter, sum_idx3]
  rw [Finset.sum_eq_single a]
  · refine Finset.sum_congr rfl fun b _ => Finset.sum_congr rfl fun c _ => ?_
    exact if_pos ((hp _).2 rfl)
  · intro a' _ hne
    refine Finset.sum_eq_zero fun b _ => Finset.sum_eq_zero fun c _ => ?_
    exact if_neg fun h => hne (Fin.ext ((hp _).1 h))
  · intro h
    exact absurd (Finset.mem_univ a) h

end LibIdx3
-- ==== Proof.RefVal.lean ====
/-
  The reference's result: per sample the sum over the pixels of weight × loss divided by the sum of the weights,
  then the mean over the 32 samples.
-/
import proofs.«425937_j45887430590783_3_alg».proof.Proof.RefWeights
import proofs.«425937_j45887430590783_3_alg».proof.Proof.RefLoss
import proofs.«425937_j45887430590783_3_alg».proof.Proof.LibIdx3
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.ValueIdx

/-- Dropping the two trailing axes of a [32, 1024, 1024] index leaves sample `b` exactly when its first coordinate is `b`. -/
theorem drop12_iff (i : S32x1024x1024.Idx) (b : Fin 32) :
    reducesTo_S32x1024x1024_S32_d1_2.drop i = ix1 b ↔ (i 0).val = b.val := by
  have hd : ((reducesTo_S32x1024x1024_S32_d1_2.drop i ⟨0, by decide⟩ : Fin _) : Nat) = (i ⟨0, by decide⟩ : Nat) :=
    Shape.ReducesTo.drop_apply_val_of_eq reducesTo_S32x1024x1024_S32_d1_2 i ⟨0, by decide⟩ ⟨0, by decide⟩
  constructor
  · intro h
    rw [h] at hd
    exact hd.symm
  · intro h
    funext a
    match a with
    | ⟨0, _⟩ => exact Fin.ext (hd.trans h)

/-- The host's sum over the two trailing axes, at sample `b`: the initial value plus the double sum over the rows
    and the columns. -/
theorem sum12 (x : S32x1024x1024.Idx → EReal) (init : EReal) (b : Fin 32) :
    Ideal.hostReduceAdd reducesTo_S32x1024x1024_S32_d1_2 x init (ix1 b)
      = init + ∑ h : Fin 1024, ∑ w : Fin 1024, x (ix3 b h w) := by
  unfold Ideal.hostReduceAdd
  congr 1
  exact LibIdx3.sum_idx3_fst x b _ (fun i => drop12_iff i b)

/-- The reference's weighted loss sum of sample b. -/
theorem num_eq (x0 : Cert.Spec.SO.Idx → EReal) (x1 : Cert.Spec.ST.Idx → BitVec 32)
    (hlab : ∀ i, x1 i = 0#32 ∨ x1 i = 1#32) (b : Fin 32) :
    val_main_v44 (F := Ideal) x0 x1 (ix1 b) = Cert.Spec.numR x0 x1 b := by
  unfold val_main_v44
  simp only [Host.reduceAdd, Ideal.hostReduceAdd_def]
  rw [sum12, val_main_cst_10_apply, Ideal.ofBits_def, Ideal.ofBits_zero_f32, zero_add]
  unfold Cert.Spec.numR
  refine Finset.sum_congr rfl fun h _ => Finset.sum_congr rfl fun w _ => ?_
  rw [val_main_v43_apply, wpix_eq x1 hlab b h w, nll_eq x0 x1 hlab b h w]
  rfl

/-- The reference's weight sum of sample b. -/
theorem den_eq (x1 : Cert.Spec.ST.Idx → BitVec 32) (hlab : ∀ i, x1 i = 0#32 ∨ x1 i = 1#32) (b : Fin 32) :
    val_main_v45 (F := Ideal) x1 (ix1 b) = Cert.Spec.denR x1 b := by
  unfold val_main_v45
  simp only [Host.reduceAdd, Ideal.hostReduceAdd_def]
  rw [sum12, val_main_cst_11_apply, Ideal.ofBits_def, Ideal.ofBits_zero_f32, zero_add]
  unfold Cert.Spec.denR
  refine Finset.sum_congr rfl fun h _ => Finset.sum_congr rfl fun w _ => ?_
  exact wpix_eq x1 hlab b h w

/-- The reference's result is the specification's mean of the per-sample quotients. -/
theorem value (x0 : Cert.Spec.SO.Idx → EReal) (x1 : Cert.Spec.ST.Idx → BitVec 32)
    (hlab : ∀ i, x1 i = 0#32 ∨ x1 i = 1#32) (i : S_.Idx) :
    val_main_v48 (F := Ideal) x0 x1 i = Cert.Spec.meanOf (Cert.Spec.numR x0 x1) (Cert.Spec.denR x1) := by
  rw [val_main_v48_apply, val_main_v47_apply, val_main_cst_12_apply, val_main_cst_13_apply]
  show Ideal.div (Ideal.ofBits .f32 0x00000000#32 + ∑ j : S32.Idx, val_main_v46 (F := Ideal) x0 x1 j)
      (Ideal.ofBits .f32 0x42000000#32) = _
  rw [Ideal.ofBits_zero_f32, zero_add]
  unfold Cert.Spec.meanOf
  refine congrArg (fun z => Ideal.div z (Ideal.ofBits .f32 0x42000000#32)) ?_
  refine (LibIdx3.sum_idx1 (fun j : S32.Idx => val_main_v46 (F := Ideal) x0 x1 j)).trans ?_
  refine Finset.sum_congr rfl fun b _ => ?_
  show val_main_v46 (F := Ideal) x0 x1 (ix1 b) = _
  rw [val_main_v46_apply, Ideal.hostDivf_def, num_eq x0 x1 hlab b, den_eq x1 hlab b]

end Cert.ReferenceIdeal.RefVal

end
-- ==== Proof.lean ====
/-
  The certificate's five claims for the instance-weighted two-class cross-entropy: a fused kernel that emits, per
  sample, the label sum, the loss sum and the label-times-loss sum over the 1024 × 1024 pixels, followed by a short
  host tail, against the plain jnp reference (class counts by a scatter-add, class weights, log-softmax picked at the
  label, a weighted mean per sample, the mean over the samples).

  * The three frames: the two kernel programs' are the generated frame certificates; the reference's is its generated
    run with the result dropped.
  * `preserves`: the ideal pass rewrote nothing.
  * `algebraic`: under the precondition every logit is a real and every label is 0 or 1 (PreFacts). The kernel
    program ends at `meanOf numK denK` (PointVal, KVal, KTail: the region's three sums, then the tail), the reference
    at `meanOf numR denR` (RefCount, RefWeights, RefLoss, RefVal), and the two are equal (Algebra): per pixel the
    softplus of the signed margin is minus the log-softmax at the label, and with labels in {0, 1} the weighted sums
    over the pixels are linear in the three per-sample sums, the label-0 count being 2^20 minus the label sum.
-/
import proofs.«425937_j45887430590783_3_alg».proof.Defs
import proofs.«425937_j45887430590783_3_alg».proof.Proof.Gen.Kernel
import proofs.«425937_j45887430590783_3_alg».proof.Proof.Gen.Kernel.Frame
import proofs.«425937_j45887430590783_3_alg».proof.Proof.Gen.KernelIdeal
import proofs.«425937_j45887430590783_3_alg».proof.Proof.Gen.KernelIdeal.Frame
import proofs.«425937_j45887430590783_3_alg».proof.Proof.Gen.ReferenceIdeal
import proofs.«425937_j45887430590783_3_alg».proof.Proof.Gen.Pre_finite_inputs
import proofs.«425937_j45887430590783_3_alg».proof.Proof.RefGen
import proofs.«425937_j45887430590783_3_alg».proof.Proof.PreFacts
import proofs.«425937_j45887430590783_3_alg».proof.Proof.Algebra
import proofs.«425937_j45887430590783_3_alg».proof.Proof.KTail
import proofs.«425937_j45887430590783_3_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean over the samples of the class-weighted mean loss: the kernel program in its
    three-sums form, the reference in its sum-over-pixels form, equal for real logits and labels in {0, 1}. -/
theorem algebraic : Cert.algebraic_KernelIdeal_ReferenceIdeal := by
  intro m ρ m' ρ' hpre hagree
  have hp := fun c => Cert.PreFacts.of_pre _ _ (hpre c)
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2]
  funext i
  rw [Cert.ReferenceIdeal.RefVal.value _ _ (hp c).2 i]
  exact (Cert.Algebra.mean_eq _ _ (hp c).1 (hp c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
